-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part6 {F : FTy → Type} [FloatOps F] (main_v98 : IVec S_ 1) (main_v101 : IVec S1000 1) (main_c_39 : IVec S_ 1) : IVec S_ 1 :=
  let main_v102 : IVec S_ 1 := (fun x v => Host.reduce IntOp.andi x v reducesTo_S1000_S_d0 h_S_) main_v101 main_c_39
  let main_v103 : IVec S_ 1 := andi main_v98 main_v102
  main_v103

def fn_part5 {F : FTy → Type} [FloatOps F] (main_arg18 : FVec F S4096 .f32) (main_arg19 : FVec F S1000x4096 .f32) (main_arg20 : FVec F S1000 .f32) (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  let main_v94 : FVec F S1000x4096 .f32 := Host.absf main_arg19
  let main_cst_36 : FVec F S_ .f32 := constant S_ .f32 0x7F800000#32
  let main_v95 : FVec F S1000x4096 .f32 := broadcastInDim S1000x4096 ![] bcast_S_S1000x4096 main_cst_36
  let main_v96 : IVec S1000x4096 1 := cmpf .olt main_v94 main_v95
  let main_c_37 : IVec S_ 1 := constantI S_ 1 1#1
  let main_v97 : IVec S_ 1 := (fun x v => Host.reduce IntOp.andi x v reducesTo_S1000x4096_S_d0_1 h_S_) main_v96 main_c_37
  let main_v98 : IVec S_ 1 := andi main_v93 main_v97
  let main_v99 : FVec F S1000 .f32 := Host.absf main_arg20
  let main_cst_38 : FVec F S_ .f32 := constant S_ .f32 0x7F800000#32
  let main_v100 : FVec F S1000 .f32 := broadcastInDim S1000 ![] bcast_S_S1000 main_cst_38
  let main_v101 : IVec S1000 1 := cmpf .olt main_v99 main_v100
  let main_c_39 : IVec S_ 1 := constantI S_ 1 1#1
  fn_part6 (F := F) main_v98 main_v101 main_c_39

def fn_part4 {F : FTy → Type} [FloatOps F] (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S1x4096 : Shape := ⟨2, ![1, 4096]⟩
abbrev S8192x4096 : Shape := ⟨2, ![8192, 4096]⟩
abbrev S256x2048 : Shape := ⟨2, ![256, 2048]⟩
abbrev S512x2048 : Shape := ⟨2, ![512, 2048]⟩
abbrev S1x512 : Shape := ⟨2, ![1, 512]⟩
abbrev S256x512 : Shape := ⟨2, ![256, 512]⟩
abbrev S256x4096 : Shape := ⟨2, ![256, 4096]⟩
abbrev S512x4096 : Shape := ⟨2, ![512, 4096]⟩
abbrev S1x1000 : Shape := ⟨2, ![1, 1000]⟩
abbrev S8192x1000 : Shape := ⟨2, ![8192, 1000]⟩
abbrev S128x4096 : Shape := ⟨2, ![128, 4096]⟩
abbrev S128x1000 : Shape := ⟨2, ![128, 1000]⟩

abbrev nBuf : Space → Nat
  | .hbm => 41
  | .vmem => 54
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S1000x4096, .f32⟩
  | .hbm, ⟨20, _⟩ => ⟨S1000, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S8192x4096, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S8192x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S8192x4096, .f32⟩
  | .hbm, ⟨39, _⟩ => ⟨S1x1000, .f32⟩
  | .hbm, ⟨40, _⟩ => ⟨S8192x1000, .f32⟩
  | .local _ .vmem, ⟨0, _⟩ => ⟨S256x2048, .f32⟩
  | .local _ .vmem, ⟨1, _⟩ => ⟨S256x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S256x512, .f32⟩
  | .local _ .vmem, ⟨15, _⟩ => ⟨S256x512, .f32⟩
  | .local _ .vmem, ⟨16, _⟩ => ⟨S256x4096, .f32⟩
  | .local _ .vmem, ⟨17, _⟩ => ⟨S256x4096, .f32⟩
  | .local _ .vmem, ⟨18, _⟩ => ⟨S512x4096, .f32⟩
  | .local _ .vmem, ⟨19, _⟩ => ⟨S512x4096, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S256x512, .f32⟩
  | .local _ .vmem, ⟨31, _⟩ => ⟨S256x512, .f32⟩
  | .local _ .vmem, ⟨32, _⟩ => ⟨S256x4096, .f32⟩
  | .local _ .vmem, ⟨33, _⟩ => ⟨S256x4096, .f32⟩
  | .local _ .vmem, ⟨34, _⟩ => ⟨S512x4096, .f32⟩
  | .local _ .vmem, ⟨35, _⟩ => ⟨S512x4096, .f32⟩
  | .local _ .vmem, ⟨36, _⟩ => ⟨S1x512, .f32⟩
  | .local _ .vmem, ⟨37, _⟩ => ⟨S1x512, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S1x512, .f32⟩
  | .local _ .vmem, ⟨46, _⟩ => ⟨S256x512, .f32⟩
  | .local _ .vmem, ⟨47, _⟩ => ⟨S256x512, .f32⟩
  | .local _ .vmem, ⟨48, _⟩ => ⟨S128x4096, .f32⟩
  | .local _ .vmem, ⟨49, _⟩ => ⟨S128x4096, .f32⟩
  | .local _ .vmem, ⟨50, _⟩ => ⟨S1000x4096, .f32⟩
  | .local _ .vmem, ⟨51, _⟩ => ⟨S1x1000, .f32⟩
  | .local _ .vmem, ⟨52, _⟩ => ⟨S128x1000, .f32⟩
  | .local _ .vmem, ⟨53, _⟩ => ⟨S128x1000, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg2_0 : Ref sig .tc := ⟨.vmem, 51, rfl⟩
abbrev cc3_stg3_0 : Ref sig .tc := ⟨.vmem, 52, rfl⟩
abbrev cc3_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem2_0 : DmaSem sig := 51
abbrev cc3_sem3_0 : DmaSem sig := 52
abbrev cc3_sem3_1 : DmaSem sig := 53

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![32, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S256x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![64, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S128x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1000x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1x1000 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true]

abbrev stage3_3 : Fin 2 → Memref sig .tc .vmem S128x1000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  shapeCasts_S1000_S1x1000 : S1000.ShapeCasts S1x1000
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1000x4096_S1000x4096_0_0 : ∀ a, (![0, 0] : Fin 2 → Nat) a + S1000x4096.size a ≤ S1000x4096.size a
  h_S1000x4096 : 0 < S1000x4096.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S128x1000 : S1x1000.Broadcasts S128x1000
  inb_S128x1000_S128x1000_0_0 : ∀ a, (![0, 0] : Fin 2 → Nat) a + S128x1000.size a ≤ S128x1000.size a
  h_S128x1000 : 0 < S128x1000.numel
  dot_S256x2048_S512x2048_S256x512_1_1_0_0_n_n_wf : DotDims.WF S256x2048 S512x2048 S256x512 [1] [1] [0] [0] [] []
  dot_S256x4096_S512x4096_S256x512_1_1_0_0_n_n_wf : DotDims.WF S256x4096 S512x4096 S256x512 [1] [1] [0] [0] [] []
  dot_S128x4096_S1000x4096_S128x1000_1_1_0_0_n_n_wf : DotDims.WF S128x4096 S1000x4096 S128x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S8192x4096.size a
  hwx0_7 : ∀ i : grid0.Coords, EltTy.bits .f32 = 32 ∨ (Rect.block (s := S8192x4096) S256x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x4096.size a
  hwx1_6 : ∀ i : grid1.Coords, EltTy.bits .f32 = 32 ∨ (Rect.block (s := S1x4096) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x512.size a ≤ S8192x4096.size a
  hwx1_7 : ∀ i : grid1.Coords, EltTy.bits .f32 = 32 ∨ (Rect.block (s := S8192x4096) S256x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S8192x4096.size a
  hwx2_0 : ∀ i : grid2.Coords, EltTy.bits .f32 = 32 ∨ (Rect.block (s := S8192x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x4096.size a
  hwx2_4 : ∀ i : grid2.Coords, EltTy.bits .f32 = 32 ∨ (Rect.block (s := S1x4096) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x4096.size a
  hwx2_5 : ∀ i : grid2.Coords, EltTy.bits .f32 = 32 ∨ (Rect.block (s := S1x4096) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512.size a ≤ S1x4096.size a
  hwx2_6 : ∀ i : grid2.Coords, EltTy.bits .f32 = 32 ∨ (Rect.block (s := S1x4096) S1x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x512.size a ≤ S8192x4096.size a
  hwx2_7 : ∀ i : grid2.Coords, EltTy.bits .f32 = 32 ∨ (Rect.block (s := S8192x4096) S256x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x4096.size a ≤ S8192x4096.size a
  hwx3_0 : ∀ i : grid3.Coords, EltTy.bits .f32 = 32 ∨ (Rect.block (s := S8192x4096) S128x4096.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1000x4096.size a ≤ S1000x4096.size a
  hwx3_1 : ∀ i : grid3.Coords, EltTy.bits .f32 = 32 ∨ (Rect.block (s := S1000x4096) S1000x4096.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x1000.size a ≤ S1x1000.size a
  hwx3_2 : ∀ i : grid3.Coords, EltTy.bits .f32 = 32 ∨ (Rect.block (s := S1x1000) S1x1000.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x1000.size a ≤ S8192x1000.size a
  hwx3_3 : ∀ i : grid3.Coords, EltTy.bits .f32 = 32 ∨ (Rect.block (s := S8192x1000) S128x1000.size (cc3_transform_3 i) (hinb3_3 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf
def dot_S128x4096_S1000x4096_S128x1000_1_1_0_0_n_n : DotDims S128x4096 S1000x4096 S128x1000 where
  lhsContracting := [1]
  rhsContracting := [1]
  lhsNonContracting := [0]
  rhsNonContracting := [0]
  lhsBatch := []
  rhsBatch := []
  wf := dot_S128x4096_S1000x4096_S128x1000_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S256x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v11) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v17) S256x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v17) S128x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S1000x4096.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x1000.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S128x1000.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S2048x4096 : Shape := ⟨2, ![2048, 4096]⟩
abbrev S8192x4096 : Shape := ⟨2, ![8192, 4096]⟩
abbrev S1x4096 : Shape := ⟨2, ![1, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 185
  | .vmem => 0
  | .smem => 0
  | _ => 0

abbrev hbmTy0_0 (i : Nat) : BufTy := match i % 128 with
  | 0 => ⟨S8192x2048, .f32⟩
  | 1 => ⟨S4096x2048, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096x4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S1000x4096, .f32⟩
  | 20 => ⟨S1000, .f32⟩
  | 21 => ⟨S_, .f32⟩
  | 22 => ⟨S8192x2048, .f32⟩
  | 23 => ⟨S8192x2048, .i1⟩
  | 24 => ⟨S_, .f32⟩
  | 25 => ⟨S_, .f32⟩
  | 26 => ⟨S8192x2048, .f32⟩
  | 27 => ⟨S8192x2048, .f32⟩
  | 28 => ⟨S8192x2048, .f32⟩
  | 29 => ⟨S8192x2048, .f32⟩
  | 30 => ⟨S_, .f32⟩
  | 31 => ⟨S4096x2048, .f32⟩
  | 32 => ⟨S4096x2048, .i1⟩
  | 33 => ⟨S_, .f32⟩
  | 34 => ⟨S_, .f32⟩
  | 35 => ⟨S4096x2048, .f32⟩
  | 36 => ⟨S4096x2048, .f32⟩
  | 37 => ⟨S4096x2048, .f32⟩
  | 38 => ⟨S4096x2048, .f32⟩
  | 39 => ⟨S2048x4096, .f32⟩
  | 40 => ⟨S8192x4096, .f32⟩
  | 41 => ⟨S1x4096, .f32⟩
  | 42 => ⟨S8192x4096, .f32⟩
  | 43 => ⟨S8192x4096, .f32⟩
  | 44 => ⟨S1x4096, .f32⟩
  | 45 => ⟨S8192x4096, .f32⟩
  | 46 => ⟨S8192x4096, .f32⟩
  | 47 => ⟨S_, .f32⟩
  | 48 => ⟨S4096, .f32⟩
  | 49 => ⟨S4096, .f32⟩
  | 50 => ⟨S4096, .f32⟩
  | 51 => ⟨S1x4096, .f32⟩
  | 52 => ⟨S8192x4096, .f32⟩
  | 53 => ⟨S8192x4096, .f32⟩
  | 54 => ⟨S1x4096, .f32⟩
  | 55 => ⟨S8192x4096, .f32⟩
  | 56 => ⟨S8192x4096, .f32⟩
  | 57 => ⟨S1x4096, .f32⟩
  | 58 => ⟨S8192x4096, .f32⟩
  | 59 => ⟨S8192x4096, .f32⟩
  | 60 => ⟨S_, .f32⟩
  | 61 => ⟨S_, .f32⟩
  | 62 => ⟨S_, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S_, .f32⟩
  | 69 => ⟨S8192x4096, .f32⟩
  | 70 => ⟨S8192x4096, .i1⟩
  | 71 => ⟨S_, .f32⟩
  | 72 => ⟨S_, .f32⟩
  | 73 => ⟨S8192x4096, .f32⟩
  | 74 => ⟨S8192x4096, .f32⟩
  | 75 => ⟨S8192x4096, .f32⟩
  | 76 => ⟨S8192x4096, .f32⟩
  | 77 => ⟨S_, .f32⟩
  | 78 => ⟨S4096x4096, .f32⟩
  | 79 => ⟨S4096x4096, .i1⟩
  | 80 => ⟨S_, .f32⟩
  | 81 => ⟨S_, .f32⟩
  | 82 => ⟨S4096x4096, .f32⟩
  | 83 => ⟨S4096x4096, .f32⟩
  | 84 => ⟨S4096x4096, .f32⟩
  | 85 => ⟨S4096x4096, .f32⟩
  | 86 => ⟨S4096x4096, .f32⟩
  | 87 => ⟨S8192x4096, .f32⟩
  | 88 => ⟨S1x4096, .f32⟩
  | 89 => ⟨S8192x4096, .f32⟩
  | 90 => ⟨S8192x4096, .f32⟩
  | 91 => ⟨S1x4096, .f32⟩
  | 92 => ⟨S8192x4096, .f32⟩
  | 93 => ⟨S8192x4096, .f32⟩
  | 94 => ⟨S_, .f32⟩
  | 95 => ⟨S4096, .f32⟩
  | 96 => ⟨S4096, .f32⟩
  | 97 => ⟨S4096, .f32⟩
  | 98 => ⟨S1x4096, .f32⟩
  | 99 => ⟨S8192x4096, .f32⟩
  | 100 => ⟨S8192x4096, .f32⟩
  | 101 => ⟨S1x4096, .f32⟩
  | 102 => ⟨S8192x4096, .f32⟩
  | 103 => ⟨S8192x4096, .f32⟩
  | 104 => ⟨S1x4096, .f32⟩
  | 105 => ⟨S8192x4096, .f32⟩
  | 106 => ⟨S8192x4096, .f32⟩
  | 107 => ⟨S_, .f32⟩
  | 108 => ⟨S_, .f32⟩
  | 109 => ⟨S_, .f32⟩
  | 110 => ⟨S8192x4096, .f32⟩
  | 111 => ⟨S8192x4096, .f32⟩
  | 112 => ⟨S_, .f32⟩
  | 113 => ⟨S8192x4096, .f32⟩
  | 114 => ⟨S8192x4096, .f32⟩
  | 115 => ⟨S_, .f32⟩
  | 116 => ⟨S8192x4096, .f32⟩
  | 117 => ⟨S8192x4096, .i1⟩
  | 118 => ⟨S_, .f32⟩
  | 119 => ⟨S_, .f32⟩
  | 120 => ⟨S8192x4096, .f32⟩
  | 121 => ⟨S8192x4096, .f32⟩
  | 122 => ⟨S8192x4096, .f32⟩
  | 123 => ⟨S8192x4096, .f32⟩
  | 124 => ⟨S_, .f32⟩
  | 125 => ⟨S4096x4096, .f32⟩
  | 126 => ⟨S4096x4096, .i1⟩
  | 127 => ⟨S_, .f32⟩
  | _ => ⟨S8192x2048, .f32⟩

abbrev hbmTy0_1 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S4096x4096, .f32⟩
  | 5 => ⟨S4096x4096, .f32⟩
  | 6 => ⟨S8192x4096, .f32⟩
  | 7 => ⟨S1x4096, .f32⟩
  | 8 => ⟨S8192x4096, .f32⟩
  | 9 => ⟨S8192x4096, .f32⟩
  | 10 => ⟨S1x4096, .f32⟩
  | 11 => ⟨S8192x4096, .f32⟩
  | 12 => ⟨S8192x4096, .f32⟩
  | 13 => ⟨S_, .f32⟩
  | 14 => ⟨S4096, .f32⟩
  | 15 => ⟨S4096, .f32⟩
  | 16 => ⟨S4096, .f32⟩
  | 17 => ⟨S1x4096, .f32⟩
  | 18 => ⟨S8192x4096, .f32⟩
  | 19 => ⟨S8192x4096, .f32⟩
  | 20 => ⟨S1x4096, .f32⟩
  | 21 => ⟨S8192x4096, .f32⟩
  | 22 => ⟨S8192x4096, .f32⟩
  | 23 => ⟨S1x4096, .f32⟩
  | 24 => ⟨S8192x4096, .f32⟩
  | 25 => ⟨S8192x4096, .f32⟩
  | 26 => ⟨S_, .f32⟩
  | 27 => ⟨S_, .f32⟩
  | 28 => ⟨S_, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S8192x4096, .f32⟩
  | 36 => ⟨S8192x4096, .i1⟩
  | 37 => ⟨S_, .f32⟩
  | 38 => ⟨S_, .f32⟩
  | 39 => ⟨S8192x4096, .f32⟩
  | 40 => ⟨S8192x4096, .f32⟩
  | 41 => ⟨S8192x4096, .f32⟩
  | 42 => ⟨S8192x4096, .f32⟩
  | 43 => ⟨S_, .f32⟩
  | 44 => ⟨S1000x4096, .f32⟩
  | 45 => ⟨S1000x4096, .i1⟩
  | 46 => ⟨S_, .f32⟩
  | 47 => ⟨S_, .f32⟩
  | 48 => ⟨S1000x4096, .f32⟩
  | 49 => ⟨S1000x4096, .f32⟩
  | 50 => ⟨S1000x4096, .f32⟩
  | 51 => ⟨S1000x4096, .f32⟩
  | 52 => ⟨S4096x1000, .f32⟩
  | 53 => ⟨S8192x1000, .f32⟩
  | 54 => ⟨S1x1000, .f32⟩
  | 55 => ⟨S8192x1000, .f32⟩
  | 56 => ⟨S8192x1000, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_cst_2 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v28 : Ref sig .tc := ⟨.hbm, 67, rfl⟩
abbrev main_cst_8 : Ref sig .tc := ⟨.hbm, 68, rfl⟩
abbrev main_v29 : Ref sig .tc := ⟨.hbm, 69, rfl⟩
abbrev main_v30 : Ref sig .tc := ⟨.hbm, 70, rfl⟩
abbrev main_cst_9 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v31 : Ref sig .tc := ⟨.hbm, 75, rfl⟩
abbrev main_v32 : Ref sig .tc := ⟨.hbm, 76, rfl⟩
abbrev main_cst_11 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_cst_13 : Ref sig .tc := ⟨.hbm, 81, rfl⟩
abbrev main_call4_v0 : Ref sig .tc := ⟨.hbm, 82, rfl⟩
abbrev main_call4_v1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_14 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_15 : Ref sig .tc := ⟨.hbm, 107, rfl⟩
abbrev main_cst_16 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v57 : Ref sig .tc := ⟨.hbm, 114, rfl⟩
abbrev main_cst_17 : Ref sig .tc := ⟨.hbm, 115, rfl⟩
abbrev main_v58 : Ref sig .tc := ⟨.hbm, 116, rfl⟩
abbrev main_v59 : Ref sig .tc := ⟨.hbm, 117, rfl⟩
abbrev main_cst_18 : Ref sig .tc := ⟨.hbm, 118, rfl⟩
abbrev main_cst_19 : Ref sig .tc := ⟨.hbm, 119, rfl⟩
abbrev main_call6_v0 : Ref sig .tc := ⟨.hbm, 120, rfl⟩
abbrev main_call6_v1 : Ref sig .tc := ⟨.hbm, 121, rfl⟩
abbrev main_v60 : Ref sig .tc := ⟨.hbm, 122, rfl⟩
abbrev main_v61 : Ref sig .tc := ⟨.hbm, 123, rfl⟩
abbrev main_cst_20 : Ref sig .tc := ⟨.hbm, 124, rfl⟩
abbrev main_v62 : Ref sig .tc := ⟨.hbm, 125, rfl⟩
abbrev main_v63 : Ref sig .tc := ⟨.hbm, 126, rfl⟩
abbrev main_cst_21 : Ref sig .tc := ⟨.hbm, 127, rfl⟩
abbrev main_cst_22 : Ref sig .tc := ⟨.hbm, 128, rfl⟩
abbrev main_call7_v0 : Ref sig .tc := ⟨.hbm, 129, rfl⟩
abbrev main_call7_v1 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_23 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_24 : Ref sig .tc := ⟨.hbm, 154, rfl⟩
abbrev main_cst_25 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_v86 : Ref sig .tc := ⟨.hbm, 161, rfl⟩
abbrev main_cst_26 : Ref sig .tc := ⟨.hbm, 162, rfl⟩
abbrev main_v87 : Ref sig .tc := ⟨.hbm, 163, rfl⟩
abbrev main_v88 : Ref sig .tc := ⟨.hbm, 164, rfl⟩
abbrev main_cst_27 : Ref sig .tc := ⟨.hbm, 165, rfl⟩
abbrev main_cst_28 : Ref sig .tc := ⟨.hbm, 166, rfl⟩
abbrev main_call9_v0 : Ref sig .tc := ⟨.hbm, 167, rfl⟩
abbrev main_call9_v1 : Ref sig .tc := ⟨.hbm, 168, rfl⟩
abbrev main_v89 : Ref sig .tc := ⟨.hbm, 169, rfl⟩
abbrev main_v90 : Ref sig .tc := ⟨.hbm, 170, rfl⟩
abbrev main_cst_29 : Ref sig .tc := ⟨.hbm, 171, rfl⟩
abbrev main_v91 : Ref sig .tc := ⟨.hbm, 172, rfl⟩
abbrev main_v92 : Ref sig .tc := ⟨.hbm, 173, rfl⟩
abbrev main_cst_30 : Ref sig .tc := ⟨.hbm, 174, rfl⟩
abbrev main_cst_31 : Ref sig .tc := ⟨.hbm, 175, rfl⟩
abbrev main_call10_v0 : Ref sig .tc := ⟨.hbm, 176, rfl⟩
abbrev main_call10_v1 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S4096x2048 : S_.BroadcastsInDim S4096x2048 (![] : Fin 0 → Fin S4096x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S1000x4096 : S_.BroadcastsInDim S1000x4096 (![] : Fin 0 → Fin S1000x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.Spec.lean ====
/-
  The function both programs compute, entry by entry, on the extended reals.

  A layer takes activations `X` (row `r`, feature `k`), a weight matrix `W` (output `c`, feature `k`) and vectors
  indexed by the output `c`. Every activation and every weight is first replaced by its sign: `+1` where the entry is
  strictly positive, `-1` everywhere else (zero, the negatives, and `-∞` included). Entry `(r, c)` of the linear part
  is the inner product of row `r` of the signs of `X` with row `c` of the signs of `W`, plus the bias `b c`. An inner
  layer then normalises with running statistics: subtract the mean `μ c`, multiply by the reciprocal square root of
  the variance `σ² c` plus `ε`, scale by `γ c`, shift by `β c`, and clamp the result to `[-1, 1]`. The network is
  three inner layers composed, followed by one linear part alone.

  The four constants (`0`, `1`, `-1`, `ε`) are kept as the 32-bit patterns both programs print; the same pattern
  denotes the same extended real on both sides, so none of them is ever evaluated.
-/
import Idealize.ShloMosaic.PureOps.Ideal
import Idealize.ShloMosaic.PureOps.Ideal.Laws
import Idealize.ShloMosaic.Lib.ValueIdx

noncomputable section

namespace Cert.Spec

open Idealize.ShloMosaic

/-- The threshold of the sign, the two values it takes, and the variance offset, as their bit patterns. -/
abbrev zero : EReal := Ideal.ofBits .f32 0x00000000#32
abbrev one : EReal := Ideal.ofBits .f32 0x3F800000#32
abbrev negOne : EReal := Ideal.ofBits .f32 0xBF800000#32
abbrev eps : EReal := Ideal.ofBits .f32 0x3727C5AC#32

/-- The sign of an entry: `1` where it is strictly above the threshold, `-1` elsewhere. -/
def sgn (x : EReal) : EReal :=
  Scalar.select (FloatOps.cmpf (F := Ideal) (φ := .f32) .ogt x zero) one negOne

/-- The linear part at `(r, c)`: the inner product of the signs of row `r` of `X` and of row `c` of `W`, plus `b c`. -/
def lin {B K N : Nat} (X : Fin B → Fin K → EReal) (W : Fin N → Fin K → EReal) (b : Fin N → EReal)
    (r : Fin B) (c : Fin N) : EReal :=
  (∑ k : Fin K, sgn (X r k) * sgn (W c k)) + b c

/-- What normalisation and clamping make of a value `y` of the linear part at output `c`:
    `min 1 (max (-1) (((y - μ) · rsqrt (σ² + ε)) · γ + β))`, in this order of operations. -/
def squash (y γ β μ σ2 : EReal) : EReal :=
  min one (max negOne (((y - μ) * Ideal.rsqrt (σ2 + eps)) * γ + β))

/-- An inner layer at `(r, c)`. -/
def layer {B K N : Nat} (X : Fin B → Fin K → EReal) (W : Fin N → Fin K → EReal) (b γ β μ σ2 : Fin N → EReal)
    (r : Fin B) (c : Fin N) : EReal :=
  squash (lin X W b r c) (γ c) (β c) (μ c) (σ2 c)

/-- A layer's entry `(r, c)` reads only row `r` of the activations, row `c` of the weights and entry `c` of each vector:
    two layers whose inputs agree there agree at that entry, whatever the sizes of the matrices they are cut from. -/
theorem lin_congr {B B' K N N' : Nat} (X : Fin B → Fin K → EReal) (X' : Fin B' → Fin K → EReal)
    (W : Fin N → Fin K → EReal) (W' : Fin N' → Fin K → EReal) (b : Fin N → EReal) (b' : Fin N' → EReal)
    (r : Fin B) (r' : Fin B') (c : Fin N) (c' : Fin N')
    (hX : ∀ k, X r k = X' r' k) (hW : ∀ k, W c k = W' c' k) (hb : b c = b' c') :
    lin X W b r c = lin X' W' b' r' c' := by
  unfold lin
  rw [hb]
  exact congrArg (· + b' c') (Finset.sum_congr rfl fun k _ => by rw [hX k, hW k])

theorem layer_congr {B B' K N N' : Nat} (X : Fin B → Fin K → EReal) (X' : Fin B' → Fin K → EReal)
    (W : Fin N → Fin K → EReal) (W' : Fin N' → Fin K → EReal) (b γ β μ σ2 : Fin N → EReal) (b' γ' β' μ' σ2' : Fin N' → EReal)
    (r : Fin B) (r' : Fin B') (c : Fin N) (c' : Fin N')
    (hX : ∀ k, X r k = X' r' k) (hW : ∀ k, W c k = W' c' k) (hb : b c = b' c')
    (hγ : γ c = γ' c') (hβ : β c = β' c') (hμ : μ c = μ' c') (hσ : σ2 c = σ2' c') :
    layer X W b γ β μ σ2 r c = layer X' W' b' γ' β' μ' σ2' r' c' := by
  unfold layer
  rw [lin_congr X X' W W' b b' r r' c c' hX hW hb, hγ, hβ, hμ, hσ]

/-- The network: three inner layers, then the linear part of a fourth. -/
def net {B K0 N0 N1 N2 N3 : Nat} (x : Fin B → Fin K0 → EReal)
    (W0 : Fin N0 → Fin K0 → EReal) (b0 γ0 β0 μ0 s0 : Fin N0 → EReal)
    (W1 : Fin N1 → Fin N0 → EReal) (b1 γ1 β1 μ1 s1 : Fin N1 → EReal)
    (W2 : Fin N2 → Fin N1 → EReal) (b2 γ2 β2 μ2 s2 : Fin N2 → EReal)
    (W3 : Fin N3 → Fin N2 → EReal) (b3 : Fin N3 → EReal) : Fin B → Fin N3 → EReal :=
  lin (layer (layer (layer x W0 b0 γ0 β0 μ0 s0) W1 b1 γ1 β1 μ1 s1) W2 b2 γ2 β2 μ2 s2) W3 b3

end Cert.Spec

end
-- ==== Proof.Arrays.lean ====
/-
  Arrays as functions of their coordinates.

  Both programs hold a matrix as a function on rank-2 indices and a vector either as a function on rank-1 indices
  (the reference, and the arguments) or, after a reshape that adds a leading unit axis, as a `[1, n]` matrix (what
  the kernels read). The layers of `Spec` are stated over plain coordinates `Fin a → Fin b → EReal` and
  `Fin n → EReal`; these are the views between the two, and the one fact about them that is used: reading the
  matrix built from a function of coordinates at `(r, c)` gives the function back.
-/
import Idealize.ShloMosaic.Lib.ValueIdx

noncomputable section

namespace Cert.Spec

open Idealize.ShloMosaic Idealize.ShloMosaic.ValueIdx

/-- A matrix of extended reals with `a` rows and `b` columns, as the programs hold it. -/
abbrev Arr2 (a b : Nat) : Type := (⟨2, ![a, b]⟩ : Shape).Idx → EReal
/-- A vector of extended reals of length `n`, as the programs hold it. -/
abbrev Arr1 (n : Nat) : Type := (⟨1, ![n]⟩ : Shape).Idx → EReal

/-- Entry `(r, k)` of a matrix. -/
def mat {a b : Nat} (x : Arr2 a b) : Fin a → Fin b → EReal := fun r k => x (ix2 r k)
/-- Entry `q` of a vector. -/
def vec {n : Nat} (x : Arr1 n) : Fin n → EReal := fun q => x (ix1 q)
/-- Entry `q` of a vector held as a one-row matrix. -/
def row {n : Nat} (x : Arr2 1 n) : Fin n → EReal := fun q => x (ix2 0 q)
/-- The matrix whose entry `(r, c)` is `f r c`. -/
def unmat {a b : Nat} (f : Fin a → Fin b → EReal) : Arr2 a b := fun j => f (j 0) (j 1)

theorem unmat_ix2 {a b : Nat} (f : Fin a → Fin b → EReal) (r : Fin a) (c : Fin b) : unmat f (ix2 r c) = f r c := rfl

theorem mat_unmat {a b : Nat} (f : Fin a → Fin b → EReal) : mat (unmat f) = f := rfl

/-- Two matrices with the same entries are the same matrix. -/
theorem arr2_ext {a b : Nat} (x y : Arr2 a b) (h : ∀ r c, x (ix2 r c) = y (ix2 r c)) : x = y :=
  funext fun j => by rw [eq_ix2 j]; exact h _ _

end Cert.Spec

end
-- ==== Proof.Region0.lean ====
/-
  Layer 0 on the kernel's side: what the first region leaves in its output array.

  The region runs over a 32 × 8 grid. At point (i, j) it holds rows 256·i … 256·i + 255 of the activations (all 2048
  features), rows 512·j … 512·j + 511 of the weights, and columns 512·j … of the five parameter rows, and writes the
  256 × 512 block (i, j) of the output. Entry (p, q) of that block is the layer of `Spec` at (p, q) of the blocks:
  the product of the two sign matrices, contracted over the feature axis of both, is the inner product of row p of
  the one with row q of the other; each parameter row is broadcast down the 256 rows, so it is read at q. Since a
  layer's entry depends only on one row of each matrix and one entry of each vector, and the blocks are cut from the
  arrays at the offsets the grid point names, the block is the restriction of ONE function of the whole arrays —
  layer 0 — and the 256 blocks tile the 8192 × 4096 output: the array ends holding layer 0 of what the region found.
-/
import proofs.«105083_j26018911879634_1_alg».proof.Proof.Gen.KernelIdeal.Frame
import proofs.«105083_j26018911879634_1_alg».proof.Proof.Spec
import proofs.«105083_j26018911879634_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Idealize.ShloMosaic Idealize.ShloMosaic.TcCoe Idealize.ShloMosaic.ValueIdx
open Cert.KernelIdeal Cert.KernelIdeal.Gen

/-! the contraction of region 0: rows of the activations against rows of the weights -/

theorem lhs_d0_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem lhs_d0_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem rhs_d0_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem rhs_d0_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

theorem matmul0_apply (a : FVec Ideal S256x2048 .bf16) (w : FVec Ideal S512x2048 .bf16) (p : Fin 256) (q : Fin 512) :
    matmul dot_S256x2048_S512x2048_S256x512_1_1_0_0_n_n none a w (constant S256x512 .f32 0x00000000#32) (ix2 p q)
      = ∑ k : Fin 2048, a (ix2 p k) * w (ix2 q k) := by
  show FloatOps.matmul dot_S256x2048_S512x2048_S256x512_1_1_0_0_n_n none a w (constant S256x512 .f32 0x00000000#32) (ix2 p q) = _
  rw [Ideal.matmul_constant_zero_apply, ← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 p q) ((ValueIdx.contrEquiv1 dot_S256x2048_S512x2048_S256x512_1_1_0_0_n_n 2048 rfl rfl).symm k) = ix2 p k := funext fun a => Fin.ext (by
    match a with
    | ⟨0, _⟩ => exact lhs_d0_0 _ _
    | ⟨1, _⟩ => exact (lhs_d0_1 _ _).trans hk)
  have er : dot_S256x2048_S512x2048_S256x512_1_1_0_0_n_n.rhsIdx (ix2 p q) ((ValueIdx.contrEquiv1 dot_S256x2048_S512x2048_S256x512_1_1_0_0_n_n 2048 rfl rfl).symm k) = ix2 q k := funext fun a => Fin.ext (by
    match a with
    | ⟨0, _⟩ => exact rhs_d0_0 _ _
    | ⟨1, _⟩ => exact (rhs_d0_1 _ _).trans hk)
  rw [el, er]

/-- a one-row matrix broadcast down the rows, read at (p, q): its entry q -/
theorem rowbc_apply (y : FVec Ideal S1x512 .f32) (p : Fin 256) (q : Fin 512) :
    broadcastTo S256x512 y broadcasts_S1x512_S256x512 (ix2 p q) = y (ix2 0 q) :=
  broadcastTo_apply y broadcasts_S1x512_S256x512 (ix2 p q) (ix2 0 q) (fun a => by
    match a with
    | ⟨0, _⟩ => rfl
    | ⟨1, _⟩ => rfl)

theorem pay0_apply (x : Vec Ideal S256x2048 .f32) (w : Vec Ideal S512x2048 .f32) (b mu v g be : Vec Ideal S1x512 .f32)
    (p : Fin 256) (q : Fin 512) :
    k0_pay1 (k0_pay2 x w b mu v g) (k0_pay3 be) (ix2 p q)
      = Spec.layer (Spec.mat x) (Spec.mat w) (Spec.row b) (Spec.row g) (Spec.row be) (Spec.row mu) (Spec.row v) p q := by
  unfold k0_pay1 k0_pay2 k0_pay3
  simp only [minimumf_apply, maximumf_apply, addf_apply, mulf_apply, subf_apply, broadcast_apply]
  rw [matmul0_apply]
  simp only [rowbc_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps of the first region, decided over its 256 grid points: the activations move with the
    output's row block, the weights and the five parameter rows with its column block, and every other block index is 0. -/
theorem idx_facts0 : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = 0 ∧ win0_2.index t (1 : Fin 2) = win0_7.index t (1 : Fin 2)
    ∧ win0_3.index t (0 : Fin 2) = 0 ∧ win0_3.index t (1 : Fin 2) = win0_7.index t (1 : Fin 2)
    ∧ win0_4.index t (0 : Fin 2) = 0 ∧ win0_4.index t (1 : Fin 2) = win0_7.index t (1 : Fin 2)
    ∧ win0_5.index t (0 : Fin 2) = 0 ∧ win0_5.index t (1 : Fin 2) = win0_7.index t (1 : Fin 2)
    ∧ win0_6.index t (0 : Fin 2) = 0 ∧ win0_6.index t (1 : Fin 2) = win0_7.index t (1 : Fin 2)
    ∧ win0_7.index t (0 : Fin 2) ≤ 31 ∧ win0_7.index t (1 : Fin 2) ≤ 7 :=
  (by decide +kernel : ∀ t : Fin grid0.N, _)

/-- Layer 0 of the arrays the first region finds. -/
abbrev G0 (c : Dev nD) : S8192x4096.Idx → Elt Ideal .f32 :=
  Spec.unmat (Spec.layer (Spec.mat (V c main_arg0)) (Spec.mat (V c main_arg1)) (Spec.row (V c main_v0))
    (Spec.row (V c main_v1)) (Spec.row (V c main_v2)) (Spec.row (V c main_v3)) (Spec.row (V c main_v4)))

theorem flushed0_eq (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7]
  unfold out0_7
  rw [View.canon_unit_zero hz]
  simp only [View.ld_unit_zero (S := S256x2048) hz, View.ld_unit_zero (S := S512x2048) hz, View.ld_unit_zero (S := S1x512) hz]
  funext j
  obtain ⟨p, q, rfl⟩ : ∃ (p : Fin 256) (q : Fin 512), j = ix2 p q := ⟨j 0, j 1, eq_ix2 j⟩
  show k0_pay1 (k0_pay2 (iblk0 V c 0 t) (iblk0 V c 1 t) (iblk0 V c 2 t) (iblk0 V c 5 t) (iblk0 V c 6 t) (iblk0 V c 3 t)) (k0_pay3 (iblk0 V c 4 t)) (ix2 p q)
      = G0 V c (((cfg0.win 7).blk t).view.emb (ix2 p q))
  refine (pay0_apply (iblk0 V c 0 t) (iblk0 V c 1 t) (iblk0 V c 2 t) (iblk0 V c 5 t) (iblk0 V c 6 t) (iblk0 V c 3 t) (iblk0 V c 4 t) p q).trans ?_
  obtain ⟨e00, e01, e10, e11, e20, e21, e30, e31, e40, e41, e50, e51, e60, e61, b0, b1⟩ := idx_facts0 t
  refine Spec.layer_congr _ _ _ _ _ _ _ _ _ _ _ _ _ _ p ((((cfg0.win 7).blk t).view.emb (ix2 p q)) 0) q ((((cfg0.win 7).blk t).view.emb (ix2 p q)) 1)
    (fun k => ?_) (fun k => ?_) ?_ ?_ ?_ ?_ ?_
  · show V c main_arg0 (((cfg0.win 0).blk t).view.emb (ix2 p k)) = V c main_arg0 (ix2 ((((cfg0.win 7).blk t).view.emb (ix2 p q)) 0) k)
    refine congrArg (V c main_arg0) (funext fun a => Fin.ext ?_)
    match a with
    | ⟨0, _⟩ => show win0_0.index t (0 : Fin 2) * 256 + 1 * p.val = win0_7.index t (0 : Fin 2) * 256 + 1 * p.val; omega
    | ⟨1, _⟩ => show win0_0.index t (1 : Fin 2) * 2048 + 1 * k.val = k.val; omega
  · show V c main_arg1 (((cfg0.win 1).blk t).view.emb (ix2 q k)) = V c main_arg1 (ix2 ((((cfg0.win 7).blk t).view.emb (ix2 p q)) 1) k)
    refine congrArg (V c main_arg1) (funext fun a => Fin.ext ?_)
    match a with
    | ⟨0, _⟩ => show win0_1.index t (0 : Fin 2) * 512 + 1 * q.val = win0_7.index t (1 : Fin 2) * 512 + 1 * q.val; omega
    | ⟨1, _⟩ => show win0_1.index t (1 : Fin 2) * 2048 + 1 * k.val = k.val; omega
  · show V c main_v0 (((cfg0.win 2).blk t).view.emb (ix2 0 q)) = V c main_v0 (ix2 0 ((((cfg0.win 7).blk t).view.emb (ix2 p q)) 1))
    refine congrArg (V c main_v0) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 512 + 1 * q.val = win0_7.index t (1 : Fin 2) * 512 + 1 * q.val; omega
  · show V c main_v1 (((cfg0.win 3).blk t).view.emb (ix2 0 q)) = V c main_v1 (ix2 0 ((((cfg0.win 7).blk t).view.emb (ix2 p q)) 1))
    refine congrArg (V c main_v1) (funext fun a => Fin.ext ?_)
    match a with
    | ⟨0, _⟩ => show win0_3.index t (0 : Fin 2) * 1 + 1 * (0 : Fin 1).val = (0 : Fin 1).val; omega
    | ⟨1, _⟩ => show win0_3.index t (1 : Fin 2) * 512 + 1 * q.val = win0_7.index t (1 : Fin 2) * 512 + 1 * q.val; omega
  · show V c main_v2 (((cfg0.win 4).blk t).view.emb (ix2 0 q)) = V c main_v2 (ix2 0 ((((cfg0.win 7).blk t).view.emb (ix2 p q)) 1))
    refine congrArg (V c main_v2) (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 512 + 1 * q.val = win0_7.index t (1 : Fin 2) * 512 + 1 * q.val; omega
  · show V c main_v3 (((cfg0.win 5).blk t).view.emb (ix2 0 q)) = V c main_v3 (ix2 0 ((((cfg0.win 7).blk t).view.emb (ix2 p q)) 1))
    refine congrArg (V c main_v3) (funext fun a => Fin.ext ?_)
    match a with
    | ⟨0, _⟩ => show win0_5.index t (0 : Fin 2) * 1 + 1 * (0 : Fin 1).val = (0 : Fin 1).val; omega
    | ⟨1, _⟩ => show win0_5.index t (1 : Fin 2) * 512 + 1 * q.val = win0_7.index t (1 : Fin 2) * 512 + 1 * q.val; omega
  · show V c main_v4 (((cfg0.win 6).blk t).view.emb (ix2 0 q)) = V c main_v4 (ix2 0 ((((cfg0.win 7).blk t).view.emb (ix2 p q)) 1))
    refine congrArg (V c main_v4) (funext fun a => Fin.ext ?_)
    match a with
    | ⟨0, _⟩ => show win0_6.index t (0 : Fin 2) * 1 + 1 * (0 : Fin 1).val = (0 : Fin 1).val; omega
    | ⟨1, _⟩ => show win0_6.index t (1 : Fin 2) * 512 + 1 * q.val = win0_7.index t (1 : Fin 2) * 512 + 1 * q.val; omega

/-- An index of the output array is in point `t`'s block iff each coordinate is in the block's range on its axis. -/
theorem mem_blk0 (t : Fin cfg0.N) (i : S8192x4096.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v5).slice (win0_7.rect t)).set ↔ _
  rw [View.set_slice_whole, Rect.mem_set_unit]
  exact Iff.rfl

/-- Every pair of a row block and a column block of the output is some grid point's. -/
theorem idx_onto0 : ∀ (q0 : Fin 32) (q1 : Fin 8), ∃ t : Fin cfg0.N, win0_7.index t = ![q0.val, q1.val] :=
  (by decide +kernel : ∀ (q0 : Fin 32) (q1 : Fin 8), ∃ t : Fin grid0.N, win0_7.index t = ![q0.val, q1.val])

/-- The output's blocks tile its array: entry (r, c) lies in the block of the point at row block r / 256, column block c / 512. -/
theorem cover0 (i : S8192x4096.Idx) : ∃ t : Fin cfg0.N, (cfg0.win 7).flush t = true ∧ i ∈ ((cfg0.win 7).blk t).view.set := by
  have hi0 : (i 0).val < 8192 := (i 0).isLt
  have hi1 : (i 1).val < 4096 := (i 1).isLt
  obtain ⟨t, ht⟩ := idx_onto0 ⟨(i 0).val / 256, by omega⟩ ⟨(i 1).val / 512, by omega⟩
  have q0 : win0_7.index t (0 : Fin 2) = (i 0).val / 256 := congrFun ht 0
  have q1 : win0_7.index t (1 : Fin 2) = (i 1).val / 512 := congrFun ht 1
  refine ⟨t, flush0_7 t, ?_⟩
  rw [mem_blk0]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-- The first region's output array after its run: layer 0 of the arrays it finds. -/
theorem region0_final (c : Dev nD) : (dat0 V c).arrAt 7 cfg0.N = G0 V c :=
  (dat0 V c).arrAt_eq_of_cover 7 (G0 V c) (fun t _ => flushed0_eq V c t) (cover0)

end Cert.KernelIdeal.Layer0

end
-- ==== Proof.Region1.lean ====
/-
  Layer 1 on the kernel's side: what the second region leaves in its output array.

  The same 32 × 8 grid and the same blocks as the first region, over 4096 features: at point (i, j) rows
  256·i … of the activations (the first region's output array), rows 512·j … of the weights and columns 512·j … of
  the five parameter rows give the 256 × 512 block (i, j) of the output, whose entry (p, q) is the layer of `Spec` at
  (p, q) of the blocks. The block is the restriction of one function of the whole arrays, and the 256 blocks tile
  the 8192 × 4096 output: the array ends holding the layer of what the region found.
-/
import proofs.«105083_j26018911879634_1_alg».proof.Proof.Gen.KernelIdeal.Frame
import proofs.«105083_j26018911879634_1_alg».proof.Proof.Spec
import proofs.«105083_j26018911879634_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Idealize.ShloMosaic Idealize.ShloMosaic.TcCoe Idealize.ShloMosaic.ValueIdx
open Cert.KernelIdeal Cert.KernelIdeal.Gen

/-! the contraction of region 1: rows of the activations against rows of the weights -/

theorem lhs_d1_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_d1_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_d1_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_d1_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

theorem matmul1_apply (a : FVec Ideal S256x4096 .bf16) (w : FVec Ideal S512x4096 .bf16) (p : Fin 256) (q : Fin 512) :
    matmul dot_S256x4096_S512x4096_S256x512_1_1_0_0_n_n none a w (constant S256x512 .f32 0x00000000#32) (ix2 p q)
      = ∑ k : Fin 4096, a (ix2 p k) * w (ix2 q k) := by
  show FloatOps.matmul dot_S256x4096_S512x4096_S256x512_1_1_0_0_n_n none a w (constant S256x512 .f32 0x00000000#32) (ix2 p q) = _
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p q) ((ValueIdx.contrEquiv1 dot_S256x4096_S512x4096_S256x512_1_1_0_0_n_n 4096 rfl rfl).symm k) = ix2 p k := funext fun a => Fin.ext (by
    match a with
    | ⟨0, _⟩ => exact lhs_d1_0 _ _
    | ⟨1, _⟩ => exact (lhs_d1_1 _ _).trans hk)
  have er : dot_S256x4096_S512x4096_S256x512_1_1_0_0_n_n.rhsIdx (ix2 p q) ((ValueIdx.contrEquiv1 dot_S256x4096_S512x4096_S256x512_1_1_0_0_n_n 4096 rfl rfl).symm k) = ix2 q k := funext fun a => Fin.ext (by
    match a with
    | ⟨0, _⟩ => exact rhs_d1_0 _ _
    | ⟨1, _⟩ => exact (rhs_d1_1 _ _).trans hk)
  rw [el, er]

/-- a one-row matrix broadcast down the rows, read at (p, q): its entry q -/
theorem rowbc_apply (y : FVec Ideal S1x512 .f32) (p : Fin 256) (q : Fin 512) :
    broadcastTo S256x512 y broadcasts_S1x512_S256x512 (ix2 p q) = y (ix2 0 q) :=
  broadcastTo_apply y broadcasts_S1x512_S256x512 (ix2 p q) (ix2 0 q) (fun a => by
    match a with
    | ⟨0, _⟩ => rfl
    | ⟨1, _⟩ => rfl)

theorem pay1_apply (x : Vec Ideal S256x4096 .f32) (w : Vec Ideal S512x4096 .f32) (b mu v g be : Vec Ideal S1x512 .f32)
    (p : Fin 256) (q : Fin 512) :
    k1_pay1 (k1_pay2 x w b mu v g) be (ix2 p q)
      = Spec.layer (Spec.mat x) (Spec.mat w) (Spec.row b) (Spec.row g) (Spec.row be) (Spec.row mu) (Spec.row v) p q := by
  unfold k1_pay1 k1_pay2
  simp only [minimumf_apply, maximumf_apply, addf_apply, mulf_apply, subf_apply, broadcast_apply]
  rw [matmul1_apply]
  simp only [rowbc_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps of the second region, decided over its 256 grid points: the activations move with the
    output's row block, the weights and the five parameter rows with its column block, and every other block index is 0. -/
theorem idx_facts1 : ∀ t : Fin cfg1.N,
    win1_0.index t (0 : Fin 2) = win1_7.index t (0 : Fin 2) ∧ win1_0.index t (1 : Fin 2) = 0
    ∧ win1_1.index t (0 : Fin 2) = win1_7.index t (1 : Fin 2) ∧ win1_1.index t (1 : Fin 2) = 0
    ∧ win1_2.index t (0 : Fin 2) = 0 ∧ win1_2.index t (1 : Fin 2) = win1_7.index t (1 : Fin 2)
    ∧ win1_3.index t (0 : Fin 2) = 0 ∧ win1_3.index t (1 : Fin 2) = win1_7.index t (1 : Fin 2)
    ∧ win1_4.index t (0 : Fin 2) = 0 ∧ win1_4.index t (1 : Fin 2) = win1_7.index t (1 : Fin 2)
    ∧ win1_5.index t (0 : Fin 2) = 0 ∧ win1_5.index t (1 : Fin 2) = win1_7.index t (1 : Fin 2)
    ∧ win1_6.index t (0 : Fin 2) = 0 ∧ win1_6.index t (1 : Fin 2) = win1_7.index t (1 : Fin 2)
    ∧ win1_7.index t (0 : Fin 2) ≤ 31 ∧ win1_7.index t (1 : Fin 2) ≤ 7 :=
  (by decide +kernel : ∀ t : Fin grid1.N, _)

/-- The layer of the arrays the second region finds. -/
abbrev G1 (c : Dev nD) : S8192x4096.Idx → Elt Ideal .f32 :=
  Spec.unmat (Spec.layer (Spec.mat (V c main_v5)) (Spec.mat (V c main_arg7)) (Spec.row (V c main_v6))
    (Spec.row (V c main_v7)) (Spec.row (V c main_v8)) (Spec.row (V c main_v9)) (Spec.row (V c main_v10)))

theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S256x4096) hz, View.ld_unit_zero (S := S512x4096) hz, View.ld_unit_zero (S := S1x512) hz]
  funext j
  obtain ⟨p, q, rfl⟩ : ∃ (p : Fin 256) (q : Fin 512), j = ix2 p q := ⟨j 0, j 1, eq_ix2 j⟩
  show k1_pay1 (k1_pay2 (iblk1 V c 0 t) (iblk1 V c 1 t) (iblk1 V c 2 t) (iblk1 V c 5 t) (iblk1 V c 6 t) (iblk1 V c 3 t)) (iblk1 V c 4 t) (ix2 p q)
      = G1 V c (((cfg1.win 7).blk t).view.emb (ix2 p q))
  refine (pay1_apply (iblk1 V c 0 t) (iblk1 V c 1 t) (iblk1 V c 2 t) (iblk1 V c 5 t) (iblk1 V c 6 t) (iblk1 V c 3 t) (iblk1 V c 4 t) p q).trans ?_
  obtain ⟨e00, e01, e10, e11, e20, e21, e30, e31, e40, e41, e50, e51, e60, e61, b0, b1⟩ := idx_facts1 t
  refine Spec.layer_congr _ _ _ _ _ _ _ _ _ _ _ _ _ _ p ((((cfg1.win 7).blk t).view.emb (ix2 p q)) 0) q ((((cfg1.win 7).blk t).view.emb (ix2 p q)) 1)
    (fun k => ?_) (fun k => ?_) ?_ ?_ ?_ ?_ ?_
  · show V c main_v5 (((cfg1.win 0).blk t).view.emb (ix2 p k)) = V c main_v5 (ix2 ((((cfg1.win 7).blk t).view.emb (ix2 p q)) 0) k)
    refine congrArg (V c main_v5) (funext fun a => Fin.ext ?_)
    match a with
    | ⟨0, _⟩ => show win1_0.index t (0 : Fin 2) * 256 + 1 * p.val = win1_7.index t (0 : Fin 2) * 256 + 1 * p.val; omega
    | ⟨1, _⟩ => show win1_0.index t (1 : Fin 2) * 4096 + 1 * k.val = k.val; omega
  · show V c main_arg7 (((cfg1.win 1).blk t).view.emb (ix2 q k)) = V c main_arg7 (ix2 ((((cfg1.win 7).blk t).view.emb (ix2 p q)) 1) k)
    refine congrArg (V c main_arg7) (funext fun a => Fin.ext ?_)
    match a with
    | ⟨0, _⟩ => show win1_1.index t (0 : Fin 2) * 512 + 1 * q.val = win1_7.index t (1 : Fin 2) * 512 + 1 * q.val; omega
    | ⟨1, _⟩ => show win1_1.index t (1 : Fin 2) * 4096 + 1 * k.val = k.val; omega
  · show V c main_v6 (((cfg1.win 2).blk t).view.emb (ix2 0 q)) = V c main_v6 (ix2 0 ((((cfg1.win 7).blk t).view.emb (ix2 p q)) 1))
    refine congrArg (V c main_v6) (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 512 + 1 * q.val = win1_7.index t (1 : Fin 2) * 512 + 1 * q.val; omega
  · show V c main_v7 (((cfg1.win 3).blk t).view.emb (ix2 0 q)) = V c main_v7 (ix2 0 ((((cfg1.win 7).blk t).view.emb (ix2 p q)) 1))
    refine congrArg (V c main_v7) (funext fun a => Fin.ext ?_)
    match a with
    | ⟨0, _⟩ => show win1_3.index t (0 : Fin 2) * 1 + 1 * (0 : Fin 1).val = (0 : Fin 1).val; omega
    | ⟨1, _⟩ => show win1_3.index t (1 : Fin 2) * 512 + 1 * q.val = win1_7.index t (1 : Fin 2) * 512 + 1 * q.val; omega
  · show V c main_v8 (((cfg1.win 4).blk t).view.emb (ix2 0 q)) = V c main_v8 (ix2 0 ((((cfg1.win 7).blk t).view.emb (ix2 p q)) 1))
    refine congrArg (V c main_v8) (funext fun a => Fin.ext ?_)
    match a with
    | ⟨0, _⟩ => show win1_4.index t (0 : Fin 2) * 1 + 1 * (0 : Fin 1).val = (0 : Fin 1).val; omega
    | ⟨1, _⟩ => show win1_4.index t (1 : Fin 2) * 512 + 1 * q.val = win1_7.index t (1 : Fin 2) * 512 + 1 * q.val; omega
  · show V c main_v9 (((cfg1.win 5).blk t).view.emb (ix2 0 q)) = V c main_v9 (ix2 0 ((((cfg1.win 7).blk t).view.emb (ix2 p q)) 1))
    refine congrArg (V c main_v9) (funext fun a => Fin.ext ?_)
    match a with
    | ⟨0, _⟩ => show win1_5.index t (0 : Fin 2) * 1 + 1 * (0 : Fin 1).val = (0 : Fin 1).val; omega
    | ⟨1, _⟩ => show win1_5.index t (1 : Fin 2) * 512 + 1 * q.val = win1_7.index t (1 : Fin 2) * 512 + 1 * q.val; omega
  · show V c main_v10 (((cfg1.win 6).blk t).view.emb (ix2 0 q)) = V c main_v10 (ix2 0 ((((cfg1.win 7).blk t).view.emb (ix2 p q)) 1))
    refine congrArg (V c main_v10) (funext fun a => Fin.ext ?_)
    match a with
    | ⟨0, _⟩ => show win1_6.index t (0 : Fin 2) * 1 + 1 * (0 : Fin 1).val = (0 : Fin 1).val; omega
    | ⟨1, _⟩ => show win1_6.index t (1 : Fin 2) * 512 + 1 * q.val = win1_7.index t (1 : Fin 2) * 512 + 1 * q.val; omega

/-- An index of the output array is in point `t`'s block iff each coordinate is in the block's range on its axis. -/
theorem mem_blk1 (t : Fin cfg1.N) (i : S8192x4096.Idx) :
    i ∈ ((cfg1.win 7).blk t).view.set ↔ ∀ a : Fin 2, win1_7.index t a * S256x512.size a ≤ (i a).val ∧ (i a).val < win1_7.index t a * S256x512.size a + S256x512.size a := by
  show i ∈ ((View.whole main_v11).slice (win1_7.rect t)).set ↔ _
  rw [View.set_slice_whole, Rect.mem_set_unit]
  exact Iff.rfl

/-- Every pair of a row block and a column block of the output is some grid point's. -/
theorem idx_onto1 : ∀ (q0 : Fin 32) (q1 : Fin 8), ∃ t : Fin cfg1.N, win1_7.index t = ![q0.val, q1.val] :=
  (by decide +kernel : ∀ (q0 : Fin 32) (q1 : Fin 8), ∃ t : Fin grid1.N, win1_7.index t = ![q0.val, q1.val])

/-- The output's blocks tile its array: entry (r, c) lies in the block of the point at row block r / 256, column block c / 512. -/
theorem cover1 (i : S8192x4096.Idx) : ∃ t : Fin cfg1.N, (cfg1.win 7).flush t = true ∧ i ∈ ((cfg1.win 7).blk t).view.set := by
  have hi0 : (i 0).val < 8192 := (i 0).isLt
  have hi1 : (i 1).val < 4096 := (i 1).isLt
  obtain ⟨t, ht⟩ := idx_onto1 ⟨(i 0).val / 256, by omega⟩ ⟨(i 1).val / 512, by omega⟩
  have q0 : win1_7.index t (0 : Fin 2) = (i 0).val / 256 := congrFun ht 0
  have q1 : win1_7.index t (1 : Fin 2) = (i 1).val / 512 := congrFun ht 1
  refine ⟨t, flush1_7 t, ?_⟩
  rw [mem_blk1]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 512 ≤ (i 1).val ∧ (i 1).val < win1_7.index t (1 : Fin 2) * 512 + 512; omega

/-- The second region's output array after its run: the layer of the arrays it finds. -/
theorem region1_final (c : Dev nD) : (dat1 V c).arrAt 7 cfg1.N = G1 V c :=
  (dat1 V c).arrAt_eq_of_cover 7 (G1 V c) (fun t _ => flushed1_eq V c t) (cover1)

end Cert.KernelIdeal.Layer1

end
-- ==== Proof.Region2.lean ====
/-
  Layer 2 on the kernel's side: what the third region leaves in its output array.

  The same 32 × 8 grid and the same blocks as the second region, over 4096 features: at point (i, j) rows
  256·i … of the activations (the second region's output array), rows 512·j … of the weights and columns 512·j … of
  the five parameter rows give the 256 × 512 block (i, j) of the output, whose entry (p, q) is the layer of `Spec` at
  (p, q) of the blocks. The block is the restriction of one function of the whole arrays, and the 256 blocks tile
  the 8192 × 4096 output: the array ends holding the layer of what the region found.
-/
import proofs.«105083_j26018911879634_1_alg».proof.Proof.Gen.KernelIdeal.Frame
import proofs.«105083_j26018911879634_1_alg».proof.Proof.Spec
import proofs.«105083_j26018911879634_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Idealize.ShloMosaic Idealize.ShloMosaic.TcCoe Idealize.ShloMosaic.ValueIdx
open Cert.KernelIdeal Cert.KernelIdeal.Gen

/-! the contraction of region 2: rows of the activations against rows of the weights -/

theorem lhs_d2_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_d2_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_d2_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_d2_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

theorem matmul2_apply (a : FVec Ideal S256x4096 .bf16) (w : FVec Ideal S512x4096 .bf16) (p : Fin 256) (q : Fin 512) :
    matmul dot_S256x4096_S512x4096_S256x512_1_1_0_0_n_n none a w (constant S256x512 .f32 0x00000000#32) (ix2 p q)
      = ∑ k : Fin 4096, a (ix2 p k) * w (ix2 q k) := by
  show FloatOps.matmul dot_S256x4096_S512x4096_S256x512_1_1_0_0_n_n none a w (constant S256x512 .f32 0x00000000#32) (ix2 p q) = _
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p q) ((ValueIdx.contrEquiv1 dot_S256x4096_S512x4096_S256x512_1_1_0_0_n_n 4096 rfl rfl).symm k) = ix2 p k := funext fun a => Fin.ext (by
    match a with
    | ⟨0, _⟩ => exact lhs_d2_0 _ _
    | ⟨1, _⟩ => exact (lhs_d2_1 _ _).trans hk)
  have er : dot_S256x4096_S512x4096_S256x512_1_1_0_0_n_n.rhsIdx (ix2 p q) ((ValueIdx.contrEquiv1 dot_S256x4096_S512x4096_S256x512_1_1_0_0_n_n 4096 rfl rfl).symm k) = ix2 q k := funext fun a => Fin.ext (by
    match a with
    | ⟨0, _⟩ => exact rhs_d2_0 _ _
    | ⟨1, _⟩ => exact (rhs_d2_1 _ _).trans hk)
  rw [el, er]

/-- a one-row matrix broadcast down the rows, read at (p, q): its entry q -/
theorem rowbc_apply (y : FVec Ideal S1x512 .f32) (p : Fin 256) (q : Fin 512) :
    broadcastTo S256x512 y broadcasts_S1x512_S256x512 (ix2 p q) = y (ix2 0 q) :=
  broadcastTo_apply y broadcasts_S1x512_S256x512 (ix2 p q) (ix2 0 q) (fun a => by
    match a with
    | ⟨0, _⟩ => rfl
    | ⟨1, _⟩ => rfl)

theorem pay2_apply (x : Vec Ideal S256x4096 .f32) (w : Vec Ideal S512x4096 .f32) (b mu v g be : Vec Ideal S1x512 .f32)
    (p : Fin 256) (q : Fin 512) :
    k2_pay1 (k2_pay2 x w b mu v g) be (ix2 p q)
      = Spec.layer (Spec.mat x) (Spec.mat w) (Spec.row b) (Spec.row g) (Spec.row be) (Spec.row mu) (Spec.row v) p q := by
  unfold k2_pay1 k2_pay2
  simp only [minimumf_apply, maximumf_apply, addf_apply, mulf_apply, subf_apply, broadcast_apply]
  rw [matmul2_apply]
  simp only [rowbc_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps of the third region, decided over its 256 grid points: the activations move with the
    output's row block, the weights and the five parameter rows with its column block, and every other block index is 0. -/
theorem idx_facts2 : ∀ t : Fin cfg2.N,
    win2_0.index t (0 : Fin 2) = win2_7.index t (0 : Fin 2) ∧ win2_0.index t (1 : Fin 2) = 0
    ∧ win2_1.index t (0 : Fin 2) = win2_7.index t (1 : Fin 2) ∧ win2_1.index t (1 : Fin 2) = 0
    ∧ win2_2.index t (0 : Fin 2) = 0 ∧ win2_2.index t (1 : Fin 2) = win2_7.index t (1 : Fin 2)
    ∧ win2_3.index t (0 : Fin 2) = 0 ∧ win2_3.index t (1 : Fin 2) = win2_7.index t (1 : Fin 2)
    ∧ win2_4.index t (0 : Fin 2) = 0 ∧ win2_4.index t (1 : Fin 2) = win2_7.index t (1 : Fin 2)
    ∧ win2_5.index t (0 : Fin 2) = 0 ∧ win2_5.index t (1 : Fin 2) = win2_7.index t (1 : Fin 2)
    ∧ win2_6.index t (0 : Fin 2) = 0 ∧ win2_6.index t (1 : Fin 2) = win2_7.index t (1 : Fin 2)
    ∧ win2_7.index t (0 : Fin 2) ≤ 31 ∧ win2_7.index t (1 : Fin 2) ≤ 7 :=
  (by decide +kernel : ∀ t : Fin grid2.N, _)

/-- The layer of the arrays the third region finds. -/
abbrev G2 (c : Dev nD) : S8192x4096.Idx → Elt Ideal .f32 :=
  Spec.unmat (Spec.layer (Spec.mat (V c main_v11)) (Spec.mat (V c main_arg13)) (Spec.row (V c main_v12))
    (Spec.row (V c main_v13)) (Spec.row (V c main_v14)) (Spec.row (V c main_v15)) (Spec.row (V c main_v16)))

theorem flushed2_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero hz]
  simp only [View.ld_unit_zero (S := S256x4096) hz, View.ld_unit_zero (S := S512x4096) hz, View.ld_unit_zero (S := S1x512) hz]
  funext j
  obtain ⟨p, q, rfl⟩ : ∃ (p : Fin 256) (q : Fin 512), j = ix2 p q := ⟨j 0, j 1, eq_ix2 j⟩
  show k2_pay1 (k2_pay2 (iblk2 V c 0 t) (iblk2 V c 1 t) (iblk2 V c 2 t) (iblk2 V c 5 t) (iblk2 V c 6 t) (iblk2 V c 3 t)) (iblk2 V c 4 t) (ix2 p q)
      = G2 V c (((cfg2.win 7).blk t).view.emb (ix2 p q))
  refine (pay2_apply (iblk2 V c 0 t) (iblk2 V c 1 t) (iblk2 V c 2 t) (iblk2 V c 5 t) (iblk2 V c 6 t) (iblk2 V c 3 t) (iblk2 V c 4 t) p q).trans ?_
  obtain ⟨e00, e01, e10, e11, e20, e21, e30, e31, e40, e41, e50, e51, e60, e61, b0, b1⟩ := idx_facts2 t
  refine Spec.layer_congr _ _ _ _ _ _ _ _ _ _ _ _ _ _ p ((((cfg2.win 7).blk t).view.emb (ix2 p q)) 0) q ((((cfg2.win 7).blk t).view.emb (ix2 p q)) 1)
    (fun k => ?_) (fun k => ?_) ?_ ?_ ?_ ?_ ?_
  · show V c main_v11 (((cfg2.win 0).blk t).view.emb (ix2 p k)) = V c main_v11 (ix2 ((((cfg2.win 7).blk t).view.emb (ix2 p q)) 0) k)
    refine congrArg (V c main_v11) (funext fun a => Fin.ext ?_)
    match a with
    | ⟨0, _⟩ => show win2_0.index t (0 : Fin 2) * 256 + 1 * p.val = win2_7.index t (0 : Fin 2) * 256 + 1 * p.val; omega
    | ⟨1, _⟩ => show win2_0.index t (1 : Fin 2) * 4096 + 1 * k.val = k.val; omega
  · show V c main_arg13 (((cfg2.win 1).blk t).view.emb (ix2 q k)) = V c main_arg13 (ix2 ((((cfg2.win 7).blk t).view.emb (ix2 p q)) 1) k)
    refine congrArg (V c main_arg13) (funext fun a => Fin.ext ?_)
    match a with
    | ⟨0, _⟩ => show win2_1.index t (0 : Fin 2) * 512 + 1 * q.val = win2_7.index t (1 : Fin 2) * 512 + 1 * q.val; omega
    | ⟨1, _⟩ => show win2_1.index t (1 : Fin 2) * 4096 + 1 * k.val = k.val; omega
  · show V c main_v12 (((cfg2.win 2).blk t).view.emb (ix2 0 q)) = V c main_v12 (ix2 0 ((((cfg2.win 7).blk t).view.emb (ix2 p q)) 1))
    refine congrArg (V c main_v12) (funext fun a => Fin.ext ?_)
    match a with
    | ⟨0, _⟩ => show win2_2.index t (0 : Fin 2) * 1 + 1 * (0 : Fin 1).val = (0 : Fin 1).val; omega
    | ⟨1, _⟩ => show win2_2.index t (1 : Fin 2) * 512 + 1 * q.val = win2_7.index t (1 : Fin 2) * 512 + 1 * q.val; omega
  · show V c main_v13 (((cfg2.win 3).blk t).view.emb (ix2 0 q)) = V c main_v13 (ix2 0 ((((cfg2.win 7).blk t).view.emb (ix2 p q)) 1))
    refine congrArg (V c main_v13) (funext fun a => Fin.ext ?_)
    match a with
    | ⟨0, _⟩ => show win2_3.index t (0 : Fin 2) * 1 + 1 * (0 : Fin 1).val = (0 : Fin 1).val; omega
    | ⟨1, _⟩ => show win2_3.index t (1 : Fin 2) * 512 + 1 * q.val = win2_7.index t (1 : Fin 2) * 512 + 1 * q.val; omega
  · show V c main_v14 (((cfg2.win 4).blk t).view.emb (ix2 0 q)) = V c main_v14 (ix2 0 ((((cfg2.win 7).blk t).view.emb (ix2 p q)) 1))
    refine congrArg (V c main_v14) (funext fun a => Fin.ext ?_)
    match a with
    | ⟨0, _⟩ => show win2_4.index t (0 : Fin 2) * 1 + 1 * (0 : Fin 1).val = (0 : Fin 1).val; omega
    | ⟨1, _⟩ => show win2_4.index t (1 : Fin 2) * 512 + 1 * q.val = win2_7.index t (1 : Fin 2) * 512 + 1 * q.val; omega
  · show V c main_v15 (((cfg2.win 5).blk t).view.emb (ix2 0 q)) = V c main_v15 (ix2 0 ((((cfg2.win 7).blk t).view.emb (ix2 p q)) 1))
    refine congrArg (V c main_v15) (funext fun a => Fin.ext ?_)
    match a with
    | ⟨0, _⟩ => show win2_5.index t (0 : Fin 2) * 1 + 1 * (0 : Fin 1).val = (0 : Fin 1).val; omega
    | ⟨1, _⟩ => show win2_5.index t (1 : Fin 2) * 512 + 1 * q.val = win2_7.index t (1 : Fin 2) * 512 + 1 * q.val; omega
  · show V c main_v16 (((cfg2.win 6).blk t).view.emb (ix2 0 q)) = V c main_v16 (ix2 0 ((((cfg2.win 7).blk t).view.emb (ix2 p q)) 1))
    refine congrArg (V c main_v16) (funext fun a => Fin.ext ?_)
    match a with
    | ⟨0, _⟩ => show win2_6.index t (0 : Fin 2) * 1 + 1 * (0 : Fin 1).val = (0 : Fin 1).val; omega
    | ⟨1, _⟩ => show win2_6.index t (1 : Fin 2) * 512 + 1 * q.val = win2_7.index t (1 : Fin 2) * 512 + 1 * q.val; omega

/-- An index of the output array is in point `t`'s block iff each coordinate is in the block's range on its axis. -/
theorem mem_blk2 (t : Fin cfg2.N) (i : S8192x4096.Idx) :
    i ∈ ((cfg2.win 7).blk t).view.set ↔ ∀ a : Fin 2, win2_7.index t a * S256x512.size a ≤ (i a).val ∧ (i a).val < win2_7.index t a * S256x512.size a + S256x512.size a := by
  show i ∈ ((View.whole main_v17).slice (win2_7.rect t)).set ↔ _
  rw [View.set_slice_whole, Rect.mem_set_unit]
  exact Iff.rfl

/-- Every pair of a row block and a column block of the output is some grid point's. -/
theorem idx_onto2 : ∀ (q0 : Fin 32) (q1 : Fin 8), ∃ t : Fin cfg2.N, win2_7.index t = ![q0.val, q1.val] :=
  (by decide +kernel : ∀ (q0 : Fin 32) (q1 : Fin 8), ∃ t : Fin grid2.N, win2_7.index t = ![q0.val, q1.val])

/-- The output's blocks tile its array: entry (r, c) lies in the block of the point at row block r / 256, column block c / 512. -/
theorem cover2 (i : S8192x4096.Idx) : ∃ t : Fin cfg2.N, (cfg2.win 7).flush t = true ∧ i ∈ ((cfg2.win 7).blk t).view.set := by
  have hi0 : (i 0).val < 8192 := (i 0).isLt
  have hi1 : (i 1).val < 4096 := (i 1).isLt
  obtain ⟨t, ht⟩ := idx_onto2 ⟨(i 0).val / 256, by omega⟩ ⟨(i 1).val / 512, by omega⟩
  have q0 : win2_7.index t (0 : Fin 2) = (i 0).val / 256 := congrFun ht 0
  have q1 : win2_7.index t (1 : Fin 2) = (i 1).val / 512 := congrFun ht 1
  refine ⟨t, flush2_7 t, ?_⟩
  rw [mem_blk2]
  intro a
  match a with
  | ⟨0, _⟩ => show win2_7.index t (0 : Fin 2) * 256 ≤ (i 0).val ∧ (i 0).val < win2_7.index t (0 : Fin 2) * 256 + 256; omega
  | ⟨1, _⟩ => show win2_7.index t (1 : Fin 2) * 512 ≤ (i 1).val ∧ (i 1).val < win2_7.index t (1 : Fin 2) * 512 + 512; omega

/-- The third region's output array after its run: the layer of the arrays it finds. -/
theorem region2_final (c : Dev nD) : (dat2 V c).arrAt 7 cfg2.N = G2 V c :=
  (dat2 V c).arrAt_eq_of_cover 7 (G2 V c) (fun t _ => flushed2_eq V c t) (cover2)

end Cert.KernelIdeal.Layer2

end
-- ==== Proof.Region3.lean ====
/-
  The last layer on the kernel's side: what the fourth region leaves in its output array.

  The region runs over a 64 × 1 grid. At point (i, 0) it holds rows 128·i … 128·i + 127 of the activations (all 4096
  features), the whole 1000 × 4096 weight matrix and the whole bias row, and writes rows 128·i … of the 8192 × 1000
  output. Entry (p, q) of that block is the linear part of `Spec` at (p, q) of the blocks: the inner product of
  row p of the signs of the activations with row q of the signs of the weights, plus the bias at q. There is no
  normalisation and no clamp in this layer. The block is the restriction of one function of the whole arrays, and
  the 64 blocks tile the output.
-/
import proofs.«105083_j26018911879634_1_alg».proof.Proof.Gen.KernelIdeal.Frame
import proofs.«105083_j26018911879634_1_alg».proof.Proof.Spec
import proofs.«105083_j26018911879634_1_alg».proof.Proof.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3

open Idealize.ShloMosaic Idealize.ShloMosaic.TcCoe Idealize.ShloMosaic.ValueIdx
open Cert.KernelIdeal Cert.KernelIdeal.Gen

/-! the contraction of the last region: rows of the activations against rows of the weights -/

theorem lhs_d3_0 (i : S128x1000.Idx) (q : dot_S128x4096_S1000x4096_S128x1000_1_1_0_0_n_n.contr.Idx) :
    (dot_S128x4096_S1000x4096_S128x1000_1_1_0_0_n_n.lhsIdx i q 0).val = (i 0).val := by
  unfold DotDims.lhsIdx
  rw [dif_neg (show ¬(0 : Fin S128x4096.rank) ∈ dot_S128x4096_S1000x4096_S128x1000_1_1_0_0_n_n.lhsBatch by decide), dif_pos (show (0 : Fin S128x4096.rank) ∈ dot_S128x4096_S1000x4096_S128x1000_1_1_0_0_n_n.lhsNonContracting by decide)]
  rfl
theorem lhs_d3_1 (i : S128x1000.Idx) (q : dot_S128x4096_S1000x4096_S128x1000_1_1_0_0_n_n.contr.Idx) :
    (dot_S128x4096_S1000x4096_S128x1000_1_1_0_0_n_n.lhsIdx i q 1).val = (q ⟨0, by decide⟩).val :=
  dot_S128x4096_S1000x4096_S128x1000_1_1_0_0_n_n.lhsIdx_val_of_single rfl i q
theorem rhs_d3_0 (i : S128x1000.Idx) (q : dot_S128x4096_S1000x4096_S128x1000_1_1_0_0_n_n.contr.Idx) :
    (dot_S128x4096_S1000x4096_S128x1000_1_1_0_0_n_n.rhsIdx i q 0).val = (i 1).val := by
  unfold DotDims.rhsIdx
  rw [dif_neg (show ¬(0 : Fin S1000x4096.rank) ∈ dot_S128x4096_S1000x4096_S128x1000_1_1_0_0_n_n.rhsBatch by decide), dif_pos (show (0 : Fin S1000x4096.rank) ∈ dot_S128x4096_S1000x4096_S128x1000_1_1_0_0_n_n.rhsNonContracting by decide)]
  rfl
theorem rhs_d3_1 (i : S128x1000.Idx) (q : dot_S128x4096_S1000x4096_S128x1000_1_1_0_0_n_n.contr.Idx) :
    (dot_S128x4096_S1000x4096_S128x1000_1_1_0_0_n_n.rhsIdx i q 1).val = (q ⟨0, by decide⟩).val :=
  dot_S128x4096_S1000x4096_S128x1000_1_1_0_0_n_n.rhsIdx_val_of_single rfl i q

theorem matmul3_apply (a : FVec Ideal S128x4096 .bf16) (w : FVec Ideal S1000x4096 .bf16) (p : Fin 128) (q : Fin 1000) :
    matmul dot_S128x4096_S1000x4096_S128x1000_1_1_0_0_n_n none a w (constant S128x1000 .f32 0x00000000#32) (ix2 p q)
      = ∑ k : Fin 4096, a (ix2 p k) * w (ix2 q k) := by
  show FloatOps.matmul dot_S128x4096_S1000x4096_S128x1000_1_1_0_0_n_n none a w (constant S128x1000 .f32 0x00000000#32) (ix2 p q) = _
  rw [Ideal.matmul_constant_zero_apply, ← Equiv.sum_comp (ValueIdx.contrEquiv1 dot_S128x4096_S1000x4096_S128x1000_1_1_0_0_n_n 4096 rfl rfl).symm]
  refine Finset.sum_congr rfl fun k _ => ?_
  have hk := ValueIdx.contrEquiv1_symm_val dot_S128x4096_S1000x4096_S128x1000_1_1_0_0_n_n 4096 rfl rfl k
  have el : dot_S128x4096_S1000x4096_S128x1000_1_1_0_0_n_n.lhsIdx (ix2 p q) ((ValueIdx.contrEquiv1 dot_S128x4096_S1000x4096_S128x1000_1_1_0_0_n_n 4096 rfl rfl).symm k) = ix2 p k := funext fun a => Fin.ext (by
    match a with
    | ⟨0, _⟩ => exact lhs_d3_0 _ _
    | ⟨1, _⟩ => exact (lhs_d3_1 _ _).trans hk)
  have er : dot_S128x4096_S1000x4096_S128x1000_1_1_0_0_n_n.rhsIdx (ix2 p q) ((ValueIdx.contrEquiv1 dot_S128x4096_S1000x4096_S128x1000_1_1_0_0_n_n 4096 rfl rfl).symm k) = ix2 q k := funext fun a => Fin.ext (by
    match a with
    | ⟨0, _⟩ => exact rhs_d3_0 _ _
    | ⟨1, _⟩ => exact (rhs_d3_1 _ _).trans hk)
  rw [el, er]

/-- the bias row broadcast down the rows, read at (p, q): its entry q -/
theorem rowbc3_apply (y : FVec Ideal S1x1000 .f32) (p : Fin 128) (q : Fin 1000) :
    broadcastTo S128x1000 y broadcasts_S1x1000_S128x1000 (ix2 p q) = y (ix2 0 q) :=
  broadcastTo_apply y broadcasts_S1x1000_S128x1000 (ix2 p q) (ix2 0 q) (fun a => by
    match a with
    | ⟨0, _⟩ => rfl
    | ⟨1, _⟩ => rfl)

theorem pay3_apply (x : Vec Ideal S128x4096 .f32) (w : Vec Ideal S1000x4096 .f32) (b : Vec Ideal S1x1000 .f32)
    (p : Fin 128) (q : Fin 1000) :
    k3_pay1 x w b (ix2 p q) = Spec.lin (Spec.mat x) (Spec.mat w) (Spec.row b) p q := by
  unfold k3_pay1
  simp only [addf_apply]
  rw [matmul3_apply]
  simp only [rowbc3_apply, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps of the last region, decided over its 64 grid points: the activations move with the output's
    row block, the weights and the bias row with its (only) column block, and every other block index is 0. -/
theorem idx_facts3 : ∀ t : Fin cfg3.N,
    win3_0.index t (0 : Fin 2) = win3_3.index t (0 : Fin 2) ∧ win3_0.index t (1 : Fin 2) = 0
    ∧ win3_1.index t (0 : Fin 2) = win3_3.index t (1 : Fin 2) ∧ win3_1.index t (1 : Fin 2) = 0
    ∧ win3_2.index t (0 : Fin 2) = 0 ∧ win3_2.index t (1 : Fin 2) = win3_3.index t (1 : Fin 2)
    ∧ win3_3.index t (0 : Fin 2) ≤ 63 ∧ win3_3.index t (1 : Fin 2) ≤ 0 :=
  (by decide +kernel : ∀ t : Fin grid3.N, _)

/-- The linear part of the arrays the last region finds. -/
abbrev G3 (c : Dev nD) : S8192x1000.Idx → Elt Ideal .f32 :=
  Spec.unmat (Spec.lin (Spec.mat (V c main_v17)) (Spec.mat (V c main_arg19)) (Spec.row (V c main_v18)))

theorem flushed3_eq (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S128x4096) hz, View.ld_unit_zero (S := S1000x4096) hz, View.ld_unit_zero (S := S1x1000) hz]
  funext j
  obtain ⟨p, q, rfl⟩ : ∃ (p : Fin 128) (q : Fin 1000), j = ix2 p q := ⟨j 0, j 1, eq_ix2 j⟩
  show k3_pay1 (iblk3 V c 0 t) (iblk3 V c 1 t) (iblk3 V c 2 t) (ix2 p q)
      = G3 V c (((cfg3.win 3).blk t).view.emb (ix2 p q))
  refine (pay3_apply (iblk3 V c 0 t) (iblk3 V c 1 t) (iblk3 V c 2 t) p q).trans ?_
  obtain ⟨e00, e01, e10, e11, e20, e21, b0, b1⟩ := idx_facts3 t
  refine Spec.lin_congr _ _ _ _ _ _ p ((((cfg3.win 3).blk t).view.emb (ix2 p q)) 0) q ((((cfg3.win 3).blk t).view.emb (ix2 p q)) 1)
    (fun k => ?_) (fun k => ?_) ?_
  · show V c main_v17 (((cfg3.win 0).blk t).view.emb (ix2 p k)) = V c main_v17 (ix2 ((((cfg3.win 3).blk t).view.emb (ix2 p q)) 0) k)
    refine congrArg (V c main_v17) (funext fun a => Fin.ext ?_)
    match a with
    | ⟨0, _⟩ => show win3_0.index t (0 : Fin 2) * 128 + 1 * p.val = win3_3.index t (0 : Fin 2) * 128 + 1 * p.val; omega
    | ⟨1, _⟩ => show win3_0.index t (1 : Fin 2) * 4096 + 1 * k.val = k.val; omega
  · show V c main_arg19 (((cfg3.win 1).blk t).view.emb (ix2 q k)) = V c main_arg19 (ix2 ((((cfg3.win 3).blk t).view.emb (ix2 p q)) 1) k)
    refine congrArg (V c main_arg19) (funext fun a => Fin.ext ?_)
    match a with
    | ⟨0, _⟩ => show win3_1.index t (0 : Fin 2) * 1000 + 1 * q.val = win3_3.index t (1 : Fin 2) * 1000 + 1 * q.val; omega
    | ⟨1, _⟩ => show win3_1.index t (1 : Fin 2) * 4096 + 1 * k.val = k.val; omega
  · show V c main_v18 (((cfg3.win 2).blk t).view.emb (ix2 0 q)) = V c main_v18 (ix2 0 ((((cfg3.win 3).blk t).view.emb (ix2 p q)) 1))
    refine congrArg (V c main_v18) (funext fun a => Fin.ext ?_)
    match a with
    | ⟨0, _⟩ => show win3_2.index t (0 : Fin 2) * 1 + 1 * (0 : Fin 1).val = (0 : Fin 1).val; omega
    | ⟨1, _⟩ => show win3_2.index t (1 : Fin 2) * 1000 + 1 * q.val = win3_3.index t (1 : Fin 2) * 1000 + 1 * q.val; omega

/-- An index of the output array is in point `t`'s block iff each coordinate is in the block's range on its axis. -/
theorem mem_blk3 (t : Fin cfg3.N) (i : S8192x1000.Idx) :
    i ∈ ((cfg3.win 3).blk t).view.set ↔ ∀ a : Fin 2, win3_3.index t a * S128x1000.size a ≤ (i a).val ∧ (i a).val < win3_3.index t a * S128x1000.size a + S128x1000.size a := by
  show i ∈ ((View.whole main_v19).slice (win3_3.rect t)).set ↔ _
  rw [View.set_slice_whole, Rect.mem_set_unit]
  exact Iff.rfl

/-- Every row block of the output is some grid point's. -/
theorem idx_onto3 : ∀ (q0 : Fin 64) (q1 : Fin 1), ∃ t : Fin cfg3.N, win3_3.index t = ![q0.val, q1.val] :=
  (by decide +kernel : ∀ (q0 : Fin 64) (q1 : Fin 1), ∃ t : Fin grid3.N, win3_3.index t = ![q0.val, q1.val])

/-- The output's blocks tile its array: entry (r, c) lies in the block of the point at row block r / 128. -/
theorem cover3 (i : S8192x1000.Idx) : ∃ t : Fin cfg3.N, (cfg3.win 3).flush t = true ∧ i ∈ ((cfg3.win 3).blk t).view.set := by
  have hi0 : (i 0).val < 8192 := (i 0).isLt
  have hi1 : (i 1).val < 1000 := (i 1).isLt
  obtain ⟨t, ht⟩ := idx_onto3 ⟨(i 0).val / 128, by omega⟩ ⟨(i 1).val / 1000, by omega⟩
  have q0 : win3_3.index t (0 : Fin 2) = (i 0).val / 128 := congrFun ht 0
  have q1 : win3_3.index t (1 : Fin 2) = (i 1).val / 1000 := congrFun ht 1
  refine ⟨t, flush3_3 t, ?_⟩
  rw [mem_blk3]
  intro a
  match a with
  | ⟨0, _⟩ => show win3_3.index t (0 : Fin 2) * 128 ≤ (i 0).val ∧ (i 0).val < win3_3.index t (0 : Fin 2) * 128 + 128; omega
  | ⟨1, _⟩ => show win3_3.index t (1 : Fin 2) * 1000 ≤ (i 1).val ∧ (i 1).val < win3_3.index t (1 : Fin 2) * 1000 + 1000; omega

/-- The last region's output array after its run: the linear part of the arrays it finds. -/
theorem region3_final (c : Dev nD) : (dat3 V c).arrAt 3 cfg3.N = G3 V c :=
  (dat3 V c).arrAt_eq_of_cover 3 (G3 V c) (fun t _ => flushed3_eq V c t) (cover3)

end Cert.KernelIdeal.Layer3

end
-- ==== Proof.Chain.lean ====
/-
  The kernel's side, region to region: the result array is the network of `Spec` of the argument arrays.

  Between the regions the program only reshapes parameter vectors to one-row matrices, and nothing ever writes an
  argument array; each region writes only its own output array. So the arrays a region finds are: as activations,
  the output array the region before it left (for the first region, the input argument); as weights and
  parameters, the arguments as launched, the vectors seen as one-row matrices. Each region leaves the layer of what
  it finds, so the four outputs are the four layers composed.
-/
import proofs.«105083_j26018911879634_1_alg».proof.Proof.Gen.KernelIdeal.Frame
import proofs.«105083_j26018911879634_1_alg».proof.Proof.Region0
import proofs.«105083_j26018911879634_1_alg».proof.Proof.Region1
import proofs.«105083_j26018911879634_1_alg».proof.Proof.Region2
import proofs.«105083_j26018911879634_1_alg».proof.Proof.Region3
import Idealize.ShloMosaic.Lib.StableHlo.Run

set_option maxRecDepth 16384

noncomputable section

namespace Cert.KernelIdeal.Chain

open Idealize.ShloMosaic Idealize.ShloMosaic.TcCoe Idealize.ShloMosaic.ValueIdx Idealize.ShloMosaic.StableHlo Idealize.SL.Sem
open Cert.KernelIdeal Cert.KernelIdeal.Gen

/-- A vector reshaped to a one-row matrix has the vector's entries along its row. -/
theorem row_reshape {n : Nat} (x : Spec.Arr1 n) (h : (⟨1, ![n]⟩ : Shape).ShapeCasts ⟨2, ![1, n]⟩) :
    Spec.row (fun i => shapeCast ⟨2, ![1, n]⟩ x h i) = Spec.vec x := by
  funext q
  show shapeCast ⟨2, ![1, n]⟩ x h (ix2 0 q) = x (ix1 q)
  rw [shapeCast_addUnit_apply ![n] x h (ix2 0 q)]
  exact congrArg x (funext fun a => by match a with | ⟨0, _⟩ => rfl)

variable (m : (ℓ : Loc nD τ sig) → Buf (Elt Ideal) ℓ) (ρ : Dev nD → PrngReg)

/-- Across a stretch of reshapes: the buffer a reshape writes holds the reshaped operand, every other buffer what it held. -/
macro "carry" : tactic => `(tactic| (dsimp only [W1, W3, W5, W7, hostOps0, hostOps1, hostOps2, hostOps3]; after_results; try rfl))

/-! ## An argument array, at the boundary where a region reads it, holds what it was launched with -/

theorem at1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by carry
    _ = m ((c : Thread nD τ).loc main_arg0) := rfl
theorem at1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by carry
    _ = m ((c : Thread nD τ).loc main_arg1) := rfl
theorem at3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by carry
    _ = W1 m ρ c (Proc.devRef .tc main_arg7) := W2_of_ne m ρ c main_arg7 (by decide)
    _ = W0 m ρ c (Proc.devRef .tc main_arg7) := by carry
    _ = m ((c : Thread nD τ).loc main_arg7) := rfl
theorem at5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := by carry
    _ = W3 m ρ c (Proc.devRef .tc main_arg13) := W4_of_ne m ρ c main_arg13 (by decide)
    _ = W2 m ρ c (Proc.devRef .tc main_arg13) := by carry
    _ = W1 m ρ c (Proc.devRef .tc main_arg13) := W2_of_ne m ρ c main_arg13 (by decide)
    _ = W0 m ρ c (Proc.devRef .tc main_arg13) := by carry
    _ = m ((c : Thread nD τ).loc main_arg13) := rfl
theorem at7_main_arg19 (c : Dev nD) : W7 m ρ c (Proc.devRef .tc main_arg19) = m ((c : Thread nD τ).loc main_arg19) :=
  calc W7 m ρ c (Proc.devRef .tc main_arg19)
    _ = W6 m ρ c (Proc.devRef .tc main_arg19) := by carry
    _ = W5 m ρ c (Proc.devRef .tc main_arg19) := W6_of_ne m ρ c main_arg19 (by decide)
    _ = W4 m ρ c (Proc.devRef .tc main_arg19) := by carry
    _ = W3 m ρ c (Proc.devRef .tc main_arg19) := W4_of_ne m ρ c main_arg19 (by decide)
    _ = W2 m ρ c (Proc.devRef .tc main_arg19) := by carry
    _ = W1 m ρ c (Proc.devRef .tc main_arg19) := W2_of_ne m ρ c main_arg19 (by decide)
    _ = W0 m ρ c (Proc.devRef .tc main_arg19) := by carry
    _ = m ((c : Thread nD τ).loc main_arg19) := rfl
theorem at2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by carry
    _ = m ((c : Thread nD τ).loc main_arg8) := rfl
theorem at2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by carry
    _ = m ((c : Thread nD τ).loc main_arg9) := rfl
theorem at2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by carry
    _ = m ((c : Thread nD τ).loc main_arg10) := rfl
theorem at2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := by carry
    _ = m ((c : Thread nD τ).loc main_arg11) := rfl
theorem at2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := by carry
    _ = m ((c : Thread nD τ).loc main_arg12) := rfl
theorem at4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by carry
    _ = W1 m ρ c (Proc.devRef .tc main_arg14) := W2_of_ne m ρ c main_arg14 (by decide)
    _ = W0 m ρ c (Proc.devRef .tc main_arg14) := by carry
    _ = m ((c : Thread nD τ).loc main_arg14) := rfl
theorem at4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := W4_of_ne m ρ c main_arg15 (by decide)
    _ = W2 m ρ c (Proc.devRef .tc main_arg15) := by carry
    _ = W1 m ρ c (Proc.devRef .tc main_arg15) := W2_of_ne m ρ c main_arg15 (by decide)
    _ = W0 m ρ c (Proc.devRef .tc main_arg15) := by carry
    _ = m ((c : Thread nD τ).loc main_arg15) := rfl
theorem at4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := W4_of_ne m ρ c main_arg16 (by decide)
    _ = W2 m ρ c (Proc.devRef .tc main_arg16) := by carry
    _ = W1 m ρ c (Proc.devRef .tc main_arg16) := W2_of_ne m ρ c main_arg16 (by decide)
    _ = W0 m ρ c (Proc.devRef .tc main_arg16) := by carry
    _ = m ((c : Thread nD τ).loc main_arg16) := rfl
theorem at4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := W4_of_ne m ρ c main_arg17 (by decide)
    _ = W2 m ρ c (Proc.devRef .tc main_arg17) := by carry
    _ = W1 m ρ c (Proc.devRef .tc main_arg17) := W2_of_ne m ρ c main_arg17 (by decide)
    _ = W0 m ρ c (Proc.devRef .tc main_arg17) := by carry
    _ = m ((c : Thread nD τ).loc main_arg17) := rfl
theorem at4_main_arg18 (c : Dev nD) : W4 m ρ c (Proc.devRef .tc main_arg18) = m ((c : Thread nD τ).loc main_arg18) :=
  calc W4 m ρ c (Proc.devRef .tc main_arg18)
    _ = W3 m ρ c (Proc.devRef .tc main_arg18) := W4_of_ne m ρ c main_arg18 (by decide)
    _ = W2 m ρ c (Proc.devRef .tc main_arg18) := by carry
    _ = W1 m ρ c (Proc.devRef .tc main_arg18) := W2_of_ne m ρ c main_arg18 (by decide)
    _ = W0 m ρ c (Proc.devRef .tc main_arg18) := by carry
    _ = m ((c : Thread nD τ).loc main_arg18) := rfl
theorem at6_main_arg20 (c : Dev nD) : W6 m ρ c (Proc.devRef .tc main_arg20) = m ((c : Thread nD τ).loc main_arg20) :=
  calc W6 m ρ c (Proc.devRef .tc main_arg20)
    _ = W5 m ρ c (Proc.devRef .tc main_arg20) := W6_of_ne m ρ c main_arg20 (by decide)
    _ = W4 m ρ c (Proc.devRef .tc main_arg20) := by carry
    _ = W3 m ρ c (Proc.devRef .tc main_arg20) := W4_of_ne m ρ c main_arg20 (by decide)
    _ = W2 m ρ c (Proc.devRef .tc main_arg20) := by carry
    _ = W1 m ρ c (Proc.devRef .tc main_arg20) := W2_of_ne m ρ c main_arg20 (by decide)
    _ = W0 m ρ c (Proc.devRef .tc main_arg20) := by carry
    _ = m ((c : Thread nD τ).loc main_arg20) := rfl

/-! ## The parameter rows a region finds are the launch vectors -/

theorem row0_main_v0 (c : Dev nD) : Spec.row (V1 m ρ c main_v0) = Spec.vec (m ((c : Thread nD τ).loc main_arg2)) := by
  have e : V1 m ρ c main_v0 = fun i => shapeCast S1x4096 (W0 m ρ c (Proc.devRef .tc main_arg2)) shapeCasts_S4096_S1x4096 i := by
    show StableHlo.after hostOps0 (W0 m ρ c) (Proc.devRef .tc main_v0) = _
    carry
  rw [e, show W0 m ρ c (Proc.devRef .tc main_arg2) = m ((c : Thread nD τ).loc main_arg2) from rfl]
  exact row_reshape _ _
theorem row0_main_v1 (c : Dev nD) : Spec.row (V1 m ρ c main_v1) = Spec.vec (m ((c : Thread nD τ).loc main_arg3)) := by
  have e : V1 m ρ c main_v1 = fun i => shapeCast S1x4096 (W0 m ρ c (Proc.devRef .tc main_arg3)) shapeCasts_S4096_S1x4096 i := by
    show StableHlo.after hostOps0 (W0 m ρ c) (Proc.devRef .tc main_v1) = _
    carry
  rw [e, show W0 m ρ c (Proc.devRef .tc main_arg3) = m ((c : Thread nD τ).loc main_arg3) from rfl]
  exact row_reshape _ _
theorem row0_main_v2 (c : Dev nD) : Spec.row (V1 m ρ c main_v2) = Spec.vec (m ((c : Thread nD τ).loc main_arg4)) := by
  have e : V1 m ρ c main_v2 = fun i => shapeCast S1x4096 (W0 m ρ c (Proc.devRef .tc main_arg4)) shapeCasts_S4096_S1x4096 i := by
    show StableHlo.after hostOps0 (W0 m ρ c) (Proc.devRef .tc main_v2) = _
    carry
  rw [e, show W0 m ρ c (Proc.devRef .tc main_arg4) = m ((c : Thread nD τ).loc main_arg4) from rfl]
  exact row_reshape _ _
theorem row0_main_v3 (c : Dev nD) : Spec.row (V1 m ρ c main_v3) = Spec.vec (m ((c : Thread nD τ).loc main_arg5)) := by
  have e : V1 m ρ c main_v3 = fun i => shapeCast S1x4096 (W0 m ρ c (Proc.devRef .tc main_arg5)) shapeCasts_S4096_S1x4096 i := by
    show StableHlo.after hostOps0 (W0 m ρ c) (Proc.devRef .tc main_v3) = _
    carry
  rw [e, show W0 m ρ c (Proc.devRef .tc main_arg5) = m ((c : Thread nD τ).loc main_arg5) from rfl]
  exact row_reshape _ _
theorem row0_main_v4 (c : Dev nD) : Spec.row (V1 m ρ c main_v4) = Spec.vec (m ((c : Thread nD τ).loc main_arg6)) := by
  have e : V1 m ρ c main_v4 = fun i => shapeCast S1x4096 (W0 m ρ c (Proc.devRef .tc main_arg6)) shapeCasts_S4096_S1x4096 i := by
    show StableHlo.after hostOps0 (W0 m ρ c) (Proc.devRef .tc main_v4) = _
    carry
  rw [e, show W0 m ρ c (Proc.devRef .tc main_arg6) = m ((c : Thread nD τ).loc main_arg6) from rfl]
  exact row_reshape _ _
theorem row1_main_v6 (c : Dev nD) : Spec.row (V3 m ρ c main_v6) = Spec.vec (m ((c : Thread nD τ).loc main_arg8)) := by
  have e : V3 m ρ c main_v6 = fun i => shapeCast S1x4096 (W2 m ρ c (Proc.devRef .tc main_arg8)) shapeCasts_S4096_S1x4096 i := by
    show StableHlo.after hostOps1 (W2 m ρ c) (Proc.devRef .tc main_v6) = _
    carry
  rw [e, at2_main_arg8 m ρ c]
  exact row_reshape _ _
theorem row1_main_v7 (c : Dev nD) : Spec.row (V3 m ρ c main_v7) = Spec.vec (m ((c : Thread nD τ).loc main_arg9)) := by
  have e : V3 m ρ c main_v7 = fun i => shapeCast S1x4096 (W2 m ρ c (Proc.devRef .tc main_arg9)) shapeCasts_S4096_S1x4096 i := by
    show StableHlo.after hostOps1 (W2 m ρ c) (Proc.devRef .tc main_v7) = _
    carry
  rw [e, at2_main_arg9 m ρ c]
  exact row_reshape _ _
theorem row1_main_v8 (c : Dev nD) : Spec.row (V3 m ρ c main_v8) = Spec.vec (m ((c : Thread nD τ).loc main_arg10)) := by
  have e : V3 m ρ c main_v8 = fun i => shapeCast S1x4096 (W2 m ρ c (Proc.devRef .tc main_arg10)) shapeCasts_S4096_S1x4096 i := by
    show StableHlo.after hostOps1 (W2 m ρ c) (Proc.devRef .tc main_v8) = _
    carry
  rw [e, at2_main_arg10 m ρ c]
  exact row_reshape _ _
theorem row1_main_v9 (c : Dev nD) : Spec.row (V3 m ρ c main_v9) = Spec.vec (m ((c : Thread nD τ).loc main_arg11)) := by
  have e : V3 m ρ c main_v9 = fun i => shapeCast S1x4096 (W2 m ρ c (Proc.devRef .tc main_arg11)) shapeCasts_S4096_S1x4096 i := by
    show StableHlo.after hostOps1 (W2 m ρ c) (Proc.devRef .tc main_v9) = _
    carry
  rw [e, at2_main_arg11 m ρ c]
  exact row_reshape _ _
theorem row1_main_v10 (c : Dev nD) : Spec.row (V3 m ρ c main_v10) = Spec.vec (m ((c : Thread nD τ).loc main_arg12)) := by
  have e : V3 m ρ c main_v10 = fun i => shapeCast S1x4096 (W2 m ρ c (Proc.devRef .tc main_arg12)) shapeCasts_S4096_S1x4096 i := by
    show StableHlo.after hostOps1 (W2 m ρ c) (Proc.devRef .tc main_v10) = _
    carry
  rw [e, at2_main_arg12 m ρ c]
  exact row_reshape _ _
theorem row2_main_v12 (c : Dev nD) : Spec.row (V5 m ρ c main_v12) = Spec.vec (m ((c : Thread nD τ).loc main_arg14)) := by
  have e : V5 m ρ c main_v12 = fun i => shapeCast S1x4096 (W4 m ρ c (Proc.devRef .tc main_arg14)) shapeCasts_S4096_S1x4096 i := by
    show StableHlo.after hostOps2 (W4 m ρ c) (Proc.devRef .tc main_v12) = _
    carry
  rw [e, at4_main_arg14 m ρ c]
  exact row_reshape _ _
theorem row2_main_v13 (c : Dev nD) : Spec.row (V5 m ρ c main_v13) = Spec.vec (m ((c : Thread nD τ).loc main_arg15)) := by
  have e : V5 m ρ c main_v13 = fun i => shapeCast S1x4096 (W4 m ρ c (Proc.devRef .tc main_arg15)) shapeCasts_S4096_S1x4096 i := by
    show StableHlo.after hostOps2 (W4 m ρ c) (Proc.devRef .tc main_v13) = _
    carry
  rw [e, at4_main_arg15 m ρ c]
  exact row_reshape _ _
theorem row2_main_v14 (c : Dev nD) : Spec.row (V5 m ρ c main_v14) = Spec.vec (m ((c : Thread nD τ).loc main_arg16)) := by
  have e : V5 m ρ c main_v14 = fun i => shapeCast S1x4096 (W4 m ρ c (Proc.devRef .tc main_arg16)) shapeCasts_S4096_S1x4096 i := by
    show StableHlo.after hostOps2 (W4 m ρ c) (Proc.devRef .tc main_v14) = _
    carry
  rw [e, at4_main_arg16 m ρ c]
  exact row_reshape _ _
theorem row2_main_v15 (c : Dev nD) : Spec.row (V5 m ρ c main_v15) = Spec.vec (m ((c : Thread nD τ).loc main_arg17)) := by
  have e : V5 m ρ c main_v15 = fun i => shapeCast S1x4096 (W4 m ρ c (Proc.devRef .tc main_arg17)) shapeCasts_S4096_S1x4096 i := by
    show StableHlo.after hostOps2 (W4 m ρ c) (Proc.devRef .tc main_v15) = _
    carry
  rw [e, at4_main_arg17 m ρ c]
  exact row_reshape _ _
theorem row2_main_v16 (c : Dev nD) : Spec.row (V5 m ρ c main_v16) = Spec.vec (m ((c : Thread nD τ).loc main_arg18)) := by
  have e : V5 m ρ c main_v16 = fun i => shapeCast S1x4096 (W4 m ρ c (Proc.devRef .tc main_arg18)) shapeCasts_S4096_S1x4096 i := by
    show StableHlo.after hostOps2 (W4 m ρ c) (Proc.devRef .tc main_v16) = _
    carry
  rw [e, at4_main_arg18 m ρ c]
  exact row_reshape _ _
theorem row3_main_v18 (c : Dev nD) : Spec.row (V7 m ρ c main_v18) = Spec.vec (m ((c : Thread nD τ).loc main_arg20)) := by
  have e : V7 m ρ c main_v18 = fun i => shapeCast S1x1000 (W6 m ρ c (Proc.devRef .tc main_arg20)) shapeCasts_S1000_S1x1000 i := by
    show StableHlo.after hostOps3 (W6 m ρ c) (Proc.devRef .tc main_v18) = _
    carry
  rw [e, at6_main_arg20 m ρ c]
  exact row_reshape _ _

/-! ## The activations a region finds are the output array the region before it left -/

theorem acts1 (c : Dev nD) : V3 m ρ c main_v5 = (dat0 (V1 m ρ) c).arrAt 7 cfg0.N :=
  (show W3 m ρ c (Proc.devRef .tc main_v5) = W2 m ρ c (Proc.devRef .tc main_v5) by carry).trans (W2_arr m ρ c 7)
theorem acts2 (c : Dev nD) : V5 m ρ c main_v11 = (dat1 (V3 m ρ) c).arrAt 7 cfg1.N :=
  (show W5 m ρ c (Proc.devRef .tc main_v11) = W4 m ρ c (Proc.devRef .tc main_v11) by carry).trans (W4_arr m ρ c 7)
theorem acts3 (c : Dev nD) : V7 m ρ c main_v17 = (dat2 (V5 m ρ) c).arrAt 7 cfg2.N :=
  (show W7 m ρ c (Proc.devRef .tc main_v17) = W6 m ρ c (Proc.devRef .tc main_v17) by carry).trans (W6_arr m ρ c 7)

/-! ## The four output arrays -/

theorem out0 (c : Dev nD) : (dat0 (V1 m ρ) c).arrAt 7 cfg0.N = Spec.unmat (Spec.layer (Spec.mat (m ((c : Thread nD τ).loc main_arg0))) (Spec.mat (m ((c : Thread nD τ).loc main_arg1))) (Spec.vec (m ((c : Thread nD τ).loc main_arg2))) (Spec.vec (m ((c : Thread nD τ).loc main_arg3))) (Spec.vec (m ((c : Thread nD τ).loc main_arg4))) (Spec.vec (m ((c : Thread nD τ).loc main_arg5))) (Spec.vec (m ((c : Thread nD τ).loc main_arg6)))) := by
  rw [Layer0.region0_final (V1 m ρ) c]
  show Spec.unmat (Spec.layer (Spec.mat (V1 m ρ c main_arg0)) (Spec.mat (V1 m ρ c main_arg1)) (Spec.row (V1 m ρ c main_v0)) (Spec.row (V1 m ρ c main_v1)) (Spec.row (V1 m ρ c main_v2)) (Spec.row (V1 m ρ c main_v3)) (Spec.row (V1 m ρ c main_v4))) = _
  rw [show V1 m ρ c main_arg0 = m ((c : Thread nD τ).loc main_arg0) from at1_main_arg0 m ρ c, show V1 m ρ c main_arg1 = m ((c : Thread nD τ).loc main_arg1) from at1_main_arg1 m ρ c,
    row0_main_v0, row0_main_v1, row0_main_v2, row0_main_v3, row0_main_v4]

theorem out1 (c : Dev nD) : (dat1 (V3 m ρ) c).arrAt 7 cfg1.N = Spec.unmat (Spec.layer (Spec.layer (Spec.mat (m ((c : Thread nD τ).loc main_arg0))) (Spec.mat (m ((c : Thread nD τ).loc main_arg1))) (Spec.vec (m ((c : Thread nD τ).loc main_arg2))) (Spec.vec (m ((c : Thread nD τ).loc main_arg3))) (Spec.vec (m ((c : Thread nD τ).loc main_arg4))) (Spec.vec (m ((c : Thread nD τ).loc main_arg5))) (Spec.vec (m ((c : Thread nD τ).loc main_arg6)))) (Spec.mat (m ((c : Thread nD τ).loc main_arg7))) (Spec.vec (m ((c : Thread nD τ).loc main_arg8))) (Spec.vec (m ((c : Thread nD τ).loc main_arg9))) (Spec.vec (m ((c : Thread nD τ).loc main_arg10))) (Spec.vec (m ((c : Thread nD τ).loc main_arg11))) (Spec.vec (m ((c : Thread nD τ).loc main_arg12)))) := by
  rw [Layer1.region1_final (V3 m ρ) c]
  show Spec.unmat (Spec.layer (Spec.mat (V3 m ρ c main_v5)) (Spec.mat (V3 m ρ c main_arg7)) (Spec.row (V3 m ρ c main_v6)) (Spec.row (V3 m ρ c main_v7)) (Spec.row (V3 m ρ c main_v8)) (Spec.row (V3 m ρ c main_v9)) (Spec.row (V3 m ρ c main_v10))) = _
  rw [acts1, out0, Spec.mat_unmat, show V3 m ρ c main_arg7 = m ((c : Thread nD τ).loc main_arg7) from at3_main_arg7 m ρ c,
    row1_main_v6, row1_main_v7, row1_main_v8, row1_main_v9, row1_main_v10]

theorem out2 (c : Dev nD) : (dat2 (V5 m ρ) c).arrAt 7 cfg2.N = Spec.unmat (Spec.layer (Spec.layer (Spec.layer (Spec.mat (m ((c : Thread nD τ).loc main_arg0))) (Spec.mat (m ((c : Thread nD τ).loc main_arg1))) (Spec.vec (m ((c : Thread nD τ).loc main_arg2))) (Spec.vec (m ((c : Thread nD τ).loc main_arg3))) (Spec.vec (m ((c : Thread nD τ).loc main_arg4))) (Spec.vec (m ((c : Thread nD τ).loc main_arg5))) (Spec.vec (m ((c : Thread nD τ).loc main_arg6)))) (Spec.mat (m ((c : Thread nD τ).loc main_arg7))) (Spec.vec (m ((c : Thread nD τ).loc main_arg8))) (Spec.vec (m ((c : Thread nD τ).loc main_arg9))) (Spec.vec (m ((c : Thread nD τ).loc main_arg10))) (Spec.vec (m ((c : Thread nD τ).loc main_arg11))) (Spec.vec (m ((c : Thread nD τ).loc main_arg12)))) (Spec.mat (m ((c : Thread nD τ).loc main_arg13))) (Spec.vec (m ((c : Thread nD τ).loc main_arg14))) (Spec.vec (m ((c : Thread nD τ).loc main_arg15))) (Spec.vec (m ((c : Thread nD τ).loc main_arg16))) (Spec.vec (m ((c : Thread nD τ).loc main_arg17))) (Spec.vec (m ((c : Thread nD τ).loc main_arg18)))) := by
  rw [Layer2.region2_final (V5 m ρ) c]
  show Spec.unmat (Spec.layer (Spec.mat (V5 m ρ c main_v11)) (Spec.mat (V5 m ρ c main_arg13)) (Spec.row (V5 m ρ c main_v12)) (Spec.row (V5 m ρ c main_v13)) (Spec.row (V5 m ρ c main_v14)) (Spec.row (V5 m ρ c main_v15)) (Spec.row (V5 m ρ c main_v16))) = _
  rw [acts2, out1, Spec.mat_unmat, show V5 m ρ c main_arg13 = m ((c : Thread nD τ).loc main_arg13) from at5_main_arg13 m ρ c,
    row2_main_v12, row2_main_v13, row2_main_v14, row2_main_v15, row2_main_v16]

theorem out3 (c : Dev nD) : (dat3 (V7 m ρ) c).arrAt 3 cfg3.N = Spec.unmat (Spec.lin (Spec.layer (Spec.layer (Spec.layer (Spec.mat (m ((c : Thread nD τ).loc main_arg0))) (Spec.mat (m ((c : Thread nD τ).loc main_arg1))) (Spec.vec (m ((c : Thread nD τ).loc main_arg2))) (Spec.vec (m ((c : Thread nD τ).loc main_arg3))) (Spec.vec (m ((c : Thread nD τ).loc main_arg4))) (Spec.vec (m ((c : Thread nD τ).loc main_arg5))) (Spec.vec (m ((c : Thread nD τ).loc main_arg6)))) (Spec.mat (m ((c : Thread nD τ).loc main_arg7))) (Spec.vec (m ((c : Thread nD τ).loc main_arg8))) (Spec.vec (m ((c : Thread nD τ).loc main_arg9))) (Spec.vec (m ((c : Thread nD τ).loc main_arg10))) (Spec.vec (m ((c : Thread nD τ).loc main_arg11))) (Spec.vec (m ((c : Thread nD τ).loc main_arg12)))) (Spec.mat (m ((c : Thread nD τ).loc main_arg13))) (Spec.vec (m ((c : Thread nD τ).loc main_arg14))) (Spec.vec (m ((c : Thread nD τ).loc main_arg15))) (Spec.vec (m ((c : Thread nD τ).loc main_arg16))) (Spec.vec (m ((c : Thread nD τ).loc main_arg17))) (Spec.vec (m ((c : Thread nD τ).loc main_arg18)))) (Spec.mat (m ((c : Thread nD τ).loc main_arg19))) (Spec.vec (m ((c : Thread nD τ).loc main_arg20)))) := by
  rw [Layer3.region3_final (V7 m ρ) c]
  show Spec.unmat (Spec.lin (Spec.mat (V7 m ρ c main_v17)) (Spec.mat (V7 m ρ c main_arg19)) (Spec.row (V7 m ρ c main_v18))) = _
  rw [acts3, out2, Spec.mat_unmat, show V7 m ρ c main_arg19 = m ((c : Thread nD τ).loc main_arg19) from at7_main_arg19 m ρ c, row3_main_v18]

/-- What the last boundary holds at the result buffer: the network of the launch contents of the arguments. -/
theorem kernel_value (c : Dev nD) :
    (W8 m ρ c (Proc.devRef .tc main_v19) : Spec.Arr2 8192 1000)
      = Spec.unmat (Spec.net (Spec.mat (m ((c : Thread nD τ).loc main_arg0))) (Spec.mat (m ((c : Thread nD τ).loc main_arg1))) (Spec.vec (m ((c : Thread nD τ).loc main_arg2))) (Spec.vec (m ((c : Thread nD τ).loc main_arg3))) (Spec.vec (m ((c : Thread nD τ).loc main_arg4))) (Spec.vec (m ((c : Thread nD τ).loc main_arg5))) (Spec.vec (m ((c : Thread nD τ).loc main_arg6)))
          (Spec.mat (m ((c : Thread nD τ).loc main_arg7))) (Spec.vec (m ((c : Thread nD τ).loc main_arg8))) (Spec.vec (m ((c : Thread nD τ).loc main_arg9))) (Spec.vec (m ((c : Thread nD τ).loc main_arg10))) (Spec.vec (m ((c : Thread nD τ).loc main_arg11))) (Spec.vec (m ((c : Thread nD τ).loc main_arg12)))
          (Spec.mat (m ((c : Thread nD τ).loc main_arg13))) (Spec.vec (m ((c : Thread nD τ).loc main_arg14))) (Spec.vec (m ((c : Thread nD τ).loc main_arg15))) (Spec.vec (m ((c : Thread nD τ).loc main_arg16))) (Spec.vec (m ((c : Thread nD τ).loc main_arg17))) (Spec.vec (m ((c : Thread nD τ).loc main_arg18)))
          (Spec.mat (m ((c : Thread nD τ).loc main_arg19))) (Spec.vec (m ((c : Thread nD τ).loc main_arg20)))) :=
  (W8_arr m ρ c 3).trans (out3 m ρ c)

end Cert.KernelIdeal.Chain

end
-- ==== Proof.RefSide.lean ====
/-
  The reference's side: its result array is the network of `Spec` of the argument arrays.

  The reference is one straight line of whole-array operations. Read one layer at a time, the array after the
  k-th clamp is, at (r, c): the inner product over the features of the signs of row r of the previous array with the
  signs of row c of the weights — the weights are transposed first and the second axis of the one is contracted with
  the first of the other, which is the same sum —, plus the bias broadcast along the rows, minus the mean, times the
  reciprocal square root of the variance plus ε, times the scale, plus the shift, clamped to [-1, 1]: the layer of
  `Spec` of the previous array. The last array is the linear part alone. Composing the four gives the network.
-/
import proofs.«105083_j26018911879634_1_alg».proof.Proof.Gen.ReferenceIdeal.Read
import proofs.«105083_j26018911879634_1_alg».proof.Proof.Spec
import proofs.«105083_j26018911879634_1_alg».proof.Proof.Arrays

set_option maxRecDepth 16384

noncomputable section

namespace Cert.ReferenceIdeal.Layers

open Idealize.ShloMosaic Idealize.ShloMosaic.TcCoe Idealize.ShloMosaic.ValueIdx Idealize.SL.Sem
open Cert.ReferenceIdeal Cert.ReferenceIdeal.Read

/-- The array after the first clamp is layer 0 of the arguments. -/
theorem ref_layer0 (x0 : (⟨S8192x2048, .f32⟩ : BufTy).Contents (Elt Ideal)) (x1 : (⟨S4096x2048, .f32⟩ : BufTy).Contents (Elt Ideal)) (x2 x3 x4 x5 x6 : (⟨S4096, .f32⟩ : BufTy).Contents (Elt Ideal)) (r : Fin 8192) (c : Fin 4096) :
    val_main_v28 (F := Ideal) x0 x1 x2 x3 x4 x5 x6 (ix2 r c)
      = Spec.layer (Spec.mat x0) (Spec.mat x1) (Spec.vec x2) (Spec.vec x3) (Spec.vec x4) (Spec.vec x5) (Spec.vec x6) r c := by
  simp only [val_main_cst_apply, val_main_v0_apply, val_main_v1_apply, val_main_cst_0_apply, val_main_cst_1_apply, val_main_call0_v0_apply, val_main_call0_v1_apply, val_main_v2_apply, val_main_v3_apply, val_main_cst_2_apply, val_main_v4_apply, val_main_v5_apply, val_main_cst_3_apply, val_main_cst_4_apply, val_main_call1_v0_apply, val_main_call1_v1_apply, val_main_v6_apply, val_main_v7_apply, val_main_v8_apply, val_main_v9_apply, val_main_v10_apply, val_main_v11_apply, val_main_v12_apply, val_main_v13_apply, val_main_v14_apply, val_main_v15_apply, val_main_cst_5_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_cst_6_apply, val_main_cst_7_apply, val_main_call2_v0_apply, val_main_call2_v1_apply, val_main_call2_v2_apply, val_main_call2_v3_apply, val_main_call2_v4_apply, val_main_v28_apply]
  have hl : ∀ k, lidx_main_v9 (ix2 r c) k = ix2 r k := fun k => funext fun a => Fin.ext (by match a with | ⟨0, _⟩ => rfl | ⟨1, _⟩ => rfl)
  have hr : ∀ k, idx_main_v8 (ridx_main_v9 (ix2 r c) k) = ix2 c k := fun k => funext fun a => Fin.ext (by match a with | ⟨0, _⟩ => rfl | ⟨1, _⟩ => rfl)
  have hb : idx_main_v10 (idx_main_v11 (ix2 r c)) = ix1 c := funext fun a => Fin.ext (by match a with | ⟨0, _⟩ => rfl)
  have hm : idx_main_v13 (idx_main_v14 (ix2 r c)) = ix1 c := funext fun a => Fin.ext (by match a with | ⟨0, _⟩ => rfl)
  have hv : idx_main_v19 (idx_main_v20 (ix2 r c)) = ix1 c := funext fun a => Fin.ext (by match a with | ⟨0, _⟩ => rfl)
  have hg : idx_main_v22 (idx_main_v23 (ix2 r c)) = ix1 c := funext fun a => Fin.ext (by match a with | ⟨0, _⟩ => rfl)
  have he : idx_main_v25 (idx_main_v26 (ix2 r c)) = ix1 c := funext fun a => Fin.ext (by match a with | ⟨0, _⟩ => rfl)
  simp only [hl, hr, hb, hm, hv, hg, he]
  rfl

/-- The array after the second clamp is the layer of the array after the first. -/
theorem ref_layer1 (x0 : (⟨S8192x2048, .f32⟩ : BufTy).Contents (Elt Ideal)) (x1 : (⟨S4096x2048, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (r : Fin 8192) (c : Fin 4096) :
    val_main_v57 (F := Ideal) x0 x1 x2 x3 x4 x5 x6 x7 x8 x9 x10 x11 x12 (ix2 r c)
      = Spec.layer (Spec.mat (val_main_v28 (F := Ideal) x0 x1 x2 x3 x4 x5 x6)) (Spec.mat x7) (Spec.vec x8) (Spec.vec x9) (Spec.vec x10) (Spec.vec x11) (Spec.vec x12) r c := by
  simp only [val_main_cst_8_apply, val_main_v29_apply, val_main_v30_apply, val_main_cst_9_apply, val_main_cst_10_apply, val_main_call3_v0_apply, val_main_call3_v1_apply, val_main_v31_apply, val_main_v32_apply, val_main_cst_11_apply, val_main_v33_apply, val_main_v34_apply, val_main_cst_12_apply, val_main_cst_13_apply, val_main_call4_v0_apply, val_main_call4_v1_apply, val_main_v35_apply, val_main_v36_apply, val_main_v37_apply, val_main_v38_apply, val_main_v39_apply, val_main_v40_apply, val_main_v41_apply, val_main_v42_apply, val_main_v43_apply, val_main_v44_apply, val_main_cst_14_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_cst_15_apply, val_main_cst_16_apply, val_main_call5_v0_apply, val_main_call5_v1_apply, val_main_call5_v2_apply, val_main_call5_v3_apply, val_main_call5_v4_apply, val_main_v57_apply]
  have hl : ∀ k, lidx_main_v38 (ix2 r c) k = ix2 r k := fun k => funext fun a => Fin.ext (by match a with | ⟨0, _⟩ => rfl | ⟨1, _⟩ => rfl)
  have hr : ∀ k, idx_main_v37 (ridx_main_v38 (ix2 r c) k) = ix2 c k := fun k => funext fun a => Fin.ext (by match a with | ⟨0, _⟩ => rfl | ⟨1, _⟩ => rfl)
  have hb : idx_main_v39 (idx_main_v40 (ix2 r c)) = ix1 c := funext fun a => Fin.ext (by match a with | ⟨0, _⟩ => rfl)
  have hm : idx_main_v42 (idx_main_v43 (ix2 r c)) = ix1 c := funext fun a => Fin.ext (by match a with | ⟨0, _⟩ => rfl)
  have hv : idx_main_v48 (idx_main_v49 (ix2 r c)) = ix1 c := funext fun a => Fin.ext (by match a with | ⟨0, _⟩ => rfl)
  have hg : idx_main_v51 (idx_main_v52 (ix2 r c)) = ix1 c := funext fun a => Fin.ext (by match a with | ⟨0, _⟩ => rfl)
  have he : idx_main_v54 (idx_main_v55 (ix2 r c)) = ix1 c := funext fun a => Fin.ext (by match a with | ⟨0, _⟩ => rfl)
  simp only [hl, hr, hb, hm, hv, hg, he]
  rfl

/-- The array after the third clamp is the layer of the array after the second. -/
theorem ref_layer2 (x0 : (⟨S8192x2048, .f32⟩ : BufTy).Contents (Elt Ideal)) (x1 : (⟨S4096x2048, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (x13 : (⟨S4096x4096, .f32⟩ : BufTy).Contents (Elt Ideal)) (x14 x15 x16 x17 x18 : (⟨S4096, .f32⟩ : BufTy).Contents (Elt Ideal)) (r : Fin 8192) (c : Fin 4096) :
    val_main_v86 (F := Ideal) x0 x1 x2 x3 x4 x5 x6 x7 x8 x9 x10 x11 x12 x13 x14 x15 x16 x17 x18 (ix2 r c)
      = Spec.layer (Spec.mat (val_main_v57 (F := Ideal) x0 x1 x2 x3 x4 x5 x6 x7 x8 x9 x10 x11 x12)) (Spec.mat x13) (Spec.vec x14) (Spec.vec x15) (Spec.vec x16) (Spec.vec x17) (Spec.vec x18) r c := by
  simp only [val_main_cst_17_apply, val_main_v58_apply, val_main_v59_apply, val_main_cst_18_apply, val_main_cst_19_apply, val_main_call6_v0_apply, val_main_call6_v1_apply, val_main_v60_apply, val_main_v61_apply, val_main_cst_20_apply, val_main_v62_apply, val_main_v63_apply, val_main_cst_21_apply, val_main_cst_22_apply, val_main_call7_v0_apply, val_main_call7_v1_apply, val_main_v64_apply, val_main_v65_apply, val_main_v66_apply, val_main_v67_apply, val_main_v68_apply, val_main_v69_apply, val_main_v70_apply, val_main_v71_apply, val_main_v72_apply, val_main_v73_apply, val_main_cst_23_apply, val_main_v74_apply, val_main_v75_apply, val_main_v76_apply, val_main_v77_apply, val_main_v78_apply, val_main_v79_apply, val_main_v80_apply, val_main_v81_apply, val_main_v82_apply, val_main_v83_apply, val_main_v84_apply, val_main_v85_apply, val_main_cst_24_apply, val_main_cst_25_apply, val_main_call8_v0_apply, val_main_call8_v1_apply, val_main_call8_v2_apply, val_main_call8_v3_apply, val_main_call8_v4_apply, val_main_v86_apply]
  have hl : ∀ k, lidx_main_v67 (ix2 r c) k = ix2 r k := fun k => funext fun a => Fin.ext (by match a with | ⟨0, _⟩ => rfl | ⟨1, _⟩ => rfl)
  have hr : ∀ k, idx_main_v66 (ridx_main_v67 (ix2 r c) k) = ix2 c k := fun k => funext fun a => Fin.ext (by match a with | ⟨0, _⟩ => rfl | ⟨1, _⟩ => rfl)
  have hb : idx_main_v68 (idx_main_v69 (ix2 r c)) = ix1 c := funext fun a => Fin.ext (by match a with | ⟨0, _⟩ => rfl)
  have hm : idx_main_v71 (idx_main_v72 (ix2 r c)) = ix1 c := funext fun a => Fin.ext (by match a with | ⟨0, _⟩ => rfl)
  have hv : idx_main_v77 (idx_main_v78 (ix2 r c)) = ix1 c := funext fun a => Fin.ext (by match a with | ⟨0, _⟩ => rfl)
  have hg : idx_main_v80 (idx_main_v81 (ix2 r c)) = ix1 c := funext fun a => Fin.ext (by match a with | ⟨0, _⟩ => rfl)
  have he : idx_main_v83 (idx_main_v84 (ix2 r c)) = ix1 c := funext fun a => Fin.ext (by match a with | ⟨0, _⟩ => rfl)
  simp only [hl, hr, hb, hm, hv, hg, he]
  rfl

/-- The result is the linear part of the array after the third clamp. -/
theorem ref_last (x0 : (⟨S8192x2048, .f32⟩ : BufTy).Contents (Elt Ideal)) (x1 : (⟨S4096x2048, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (x13 : (⟨S4096x4096, .f32⟩ : BufTy).Contents (Elt Ideal)) (x14 x15 x16 x17 x18 : (⟨S4096, .f32⟩ : BufTy).Contents (Elt Ideal)) (x19 : (⟨S1000x4096, .f32⟩ : BufTy).Contents (Elt Ideal)) (x20 : (⟨S1000, .f32⟩ : BufTy).Contents (Elt Ideal)) (r : Fin 8192) (c : Fin 1000) :
    val_main_v99 (F := Ideal) x0 x1 x2 x3 x4 x5 x6 x7 x8 x9 x10 x11 x12 x13 x14 x15 x16 x17 x18 x19 x20 (ix2 r c)
      = Spec.lin (Spec.mat (val_main_v86 (F := Ideal) x0 x1 x2 x3 x4 x5 x6 x7 x8 x9 x10 x11 x12 x13 x14 x15 x16 x17 x18)) (Spec.mat x19) (Spec.vec x20) r c := by
  simp only [val_main_cst_26_apply, val_main_v87_apply, val_main_v88_apply, val_main_cst_27_apply, val_main_cst_28_apply, val_main_call9_v0_apply, val_main_call9_v1_apply, val_main_v89_apply, val_main_v90_apply, val_main_cst_29_apply, val_main_v91_apply, val_main_v92_apply, val_main_cst_30_apply, val_main_cst_31_apply, val_main_call10_v0_apply, val_main_call10_v1_apply, val_main_v93_apply, val_main_v94_apply, val_main_v95_apply, val_main_v96_apply, val_main_v97_apply, val_main_v98_apply, val_main_v99_apply]
  have hl : ∀ k, lidx_main_v96 (ix2 r c) k = ix2 r k := fun k => funext fun a => Fin.ext (by match a with | ⟨0, _⟩ => rfl | ⟨1, _⟩ => rfl)
  have hr : ∀ k, idx_main_v95 (ridx_main_v96 (ix2 r c) k) = ix2 c k := fun k => funext fun a => Fin.ext (by match a with | ⟨0, _⟩ => rfl | ⟨1, _⟩ => rfl)
  have hb : idx_main_v97 (idx_main_v98 (ix2 r c)) = ix1 c := funext fun a => Fin.ext (by match a with | ⟨0, _⟩ => rfl)
  simp only [hl, hr, hb]
  rfl

/-- The four composed: the result array is the network of the arguments. -/
theorem ref_net (x0 : (⟨S8192x2048, .f32⟩ : BufTy).Contents (Elt Ideal)) (x1 : (⟨S4096x2048, .f32⟩ : BufTy).Contents (Elt Ideal)) (x2 x3 x4 x5 x6 : (⟨S4096, .f32⟩ : BufTy).Contents (Elt Ideal)) (x7 : (⟨S4096x4096, .f32⟩ : BufTy).Contents (Elt Ideal)) (x8 x9 x10 x11 x12 : (⟨S4096, .f32⟩ : BufTy).Contents (Elt Ideal)) (x13 : (⟨S4096x4096, .f32⟩ : BufTy).Contents (Elt Ideal)) (x14 x15 x16 x17 x18 : (⟨S4096, .f32⟩ : BufTy).Contents (Elt Ideal)) (x19 : (⟨S1000x4096, .f32⟩ : BufTy).Contents (Elt Ideal)) (x20 : (⟨S1000, .f32⟩ : BufTy).Contents (Elt Ideal)) :
    (val_main_v99 (F := Ideal) x0 x1 x2 x3 x4 x5 x6 x7 x8 x9 x10 x11 x12 x13 x14 x15 x16 x17 x18 x19 x20 : Spec.Arr2 8192 1000)
      = Spec.unmat (Spec.net (Spec.mat x0) (Spec.mat x1) (Spec.vec x2) (Spec.vec x3) (Spec.vec x4) (Spec.vec x5) (Spec.vec x6)
          (Spec.mat x7) (Spec.vec x8) (Spec.vec x9) (Spec.vec x10) (Spec.vec x11) (Spec.vec x12)
          (Spec.mat x13) (Spec.vec x14) (Spec.vec x15) (Spec.vec x16) (Spec.vec x17) (Spec.vec x18)
          (Spec.mat x19) (Spec.vec x20)) := by
  have e0 : Spec.mat (val_main_v28 (F := Ideal) x0 x1 x2 x3 x4 x5 x6)
      = Spec.layer (Spec.mat x0) (Spec.mat x1) (Spec.vec x2) (Spec.vec x3) (Spec.vec x4) (Spec.vec x5) (Spec.vec x6) :=
    funext fun r => funext fun k => ref_layer0 x0 x1 x2 x3 x4 x5 x6 r k
  have e1 : Spec.mat (val_main_v57 (F := Ideal) x0 x1 x2 x3 x4 x5 x6 x7 x8 x9 x10 x11 x12)
      = Spec.layer (Spec.mat (val_main_v28 (F := Ideal) x0 x1 x2 x3 x4 x5 x6)) (Spec.mat x7) (Spec.vec x8) (Spec.vec x9) (Spec.vec x10) (Spec.vec x11) (Spec.vec x12) :=
    funext fun r => funext fun k => ref_layer1 x0 x1 x2 x3 x4 x5 x6 x7 x8 x9 x10 x11 x12 r k
  have e2 : Spec.mat (val_main_v86 (F := Ideal) x0 x1 x2 x3 x4 x5 x6 x7 x8 x9 x10 x11 x12 x13 x14 x15 x16 x17 x18)
      = Spec.layer (Spec.mat (val_main_v57 (F := Ideal) x0 x1 x2 x3 x4 x5 x6 x7 x8 x9 x10 x11 x12)) (Spec.mat x13) (Spec.vec x14) (Spec.vec x15) (Spec.vec x16) (Spec.vec x17) (Spec.vec x18) :=
    funext fun r => funext fun k => ref_layer2 x0 x1 x2 x3 x4 x5 x6 x7 x8 x9 x10 x11 x12 x13 x14 x15 x16 x17 x18 r k
  refine Spec.arr2_ext _ _ fun r c => ?_
  rw [Spec.unmat_ix2]
  refine (ref_last x0 x1 x2 x3 x4 x5 x6 x7 x8 x9 x10 x11 x12 x13 x14 x15 x16 x17 x18 x19 x20 r c).trans ?_
  unfold Spec.net
  rw [e2, e1, e0]

/-- The reference's result, as its run states it, is the network of the launch contents of the arguments. -/
theorem ref_value (m : (ℓ : Loc nD τ sig) → Buf (Elt Ideal) ℓ) (c : Dev nD) :
    (Cert.ReferenceIdeal.Value.res_main_v99 (F := Ideal) m c : Spec.Arr2 8192 1000)
      = Spec.unmat (Spec.net (Spec.mat (m ((c.tc : Thread nD τ).loc main_arg0))) (Spec.mat (m ((c.tc : Thread nD τ).loc main_arg1)))
          (Spec.vec (m ((c.tc : Thread nD τ).loc main_arg2))) (Spec.vec (m ((c.tc : Thread nD τ).loc main_arg3))) (Spec.vec (m ((c.tc : Thread nD τ).loc main_arg4))) (Spec.vec (m ((c.tc : Thread nD τ).loc main_arg5))) (Spec.vec (m ((c.tc : Thread nD τ).loc main_arg6)))
          (Spec.mat (m ((c.tc : Thread nD τ).loc main_arg7)))
          (Spec.vec (m ((c.tc : Thread nD τ).loc main_arg8))) (Spec.vec (m ((c.tc : Thread nD τ).loc main_arg9))) (Spec.vec (m ((c.tc : Thread nD τ).loc main_arg10))) (Spec.vec (m ((c.tc : Thread nD τ).loc main_arg11))) (Spec.vec (m ((c.tc : Thread nD τ).loc main_arg12)))
          (Spec.mat (m ((c.tc : Thread nD τ).loc main_arg13)))
          (Spec.vec (m ((c.tc : Thread nD τ).loc main_arg14))) (Spec.vec (m ((c.tc : Thread nD τ).loc main_arg15))) (Spec.vec (m ((c.tc : Thread nD τ).loc main_arg16))) (Spec.vec (m ((c.tc : Thread nD τ).loc main_arg17))) (Spec.vec (m ((c.tc : Thread nD τ).loc main_arg18)))
          (Spec.mat (m ((c.tc : Thread nD τ).loc main_arg19))) (Spec.vec (m ((c.tc : Thread nD τ).loc main_arg20)))) :=
  (val_main_v99_eq m c).trans (ref_net _ _ _ _ _ _ _ _ _ _ _ _ _ _ _ _ _ _ _ _ _)

end Cert.ReferenceIdeal.Layers

end
-- ==== Proof.lean ====
/-
  The certificate: the kernel program and its reference compute the same function of their arguments on the
  extended reals.

  Both programs are a four-layer network on signs. A layer replaces every activation and every weight by its sign
  (+1 where strictly positive, -1 elsewhere), multiplies the two sign matrices along the feature axis and adds a
  bias; the three inner layers then subtract a running mean, multiply by the reciprocal square root of a running
  variance plus a fixed ε, scale, shift, and clamp to [-1, 1]. The kernel program computes each layer in its own
  region, block by block over a grid, with the features held whole in every block, so that an output entry is one
  inner product over all features — the same sum the reference takes after transposing the weights. The order of
  the arithmetic after the product is the same on both sides and the four constants are the same bit patterns, so
  the two results are the same term of the arguments, entry by entry, and no law of the extended reals beyond that
  is needed: in particular finiteness of the inputs is never used.

  The modules: `Spec` states the layer and the network over coordinates; `Arrays` views the programs' arrays as
  such functions; `Region0` … `Region3` show that each region leaves the layer of the arrays it finds (an entry of a
  block is the layer of the blocks; a block is the restriction of one function of the whole arrays; the blocks
  tile the output); `Chain` threads the four regions through the reshapes between them; `KernelRun` states the
  kernel program's run with its result named; `RefSide` reads the reference's result, layer by layer, as the same
  network. The three frame claims are the generated frames (the reference's: its generated run with the result
  dropped); nothing was rewritten when the kernel was idealized, so there is nothing to preserve.
-/
import proofs.«105083_j26018911879634_1_alg».proof.Defs
import proofs.«105083_j26018911879634_1_alg».proof.Proof.Gen.Kernel
import proofs.«105083_j26018911879634_1_alg».proof.Proof.Gen.Kernel.Skeleton
import proofs.«105083_j26018911879634_1_alg».proof.Proof.Gen.Kernel.Launch
import proofs.«105083_j26018911879634_1_alg».proof.Proof.Gen.Kernel.Points
import proofs.«105083_j26018911879634_1_alg».proof.Proof.Gen.Kernel.Frame
import proofs.«105083_j26018911879634_1_alg».proof.Proof.Gen.KernelIdeal
import proofs.«105083_j26018911879634_1_alg».proof.Proof.Gen.KernelIdeal.Skeleton
import proofs.«105083_j26018911879634_1_alg».proof.Proof.Gen.KernelIdeal.Launch
import proofs.«105083_j26018911879634_1_alg».proof.Proof.Gen.KernelIdeal.Points
import proofs.«105083_j26018911879634_1_alg».proof.Proof.Gen.KernelIdeal.Frame
import proofs.«105083_j26018911879634_1_alg».proof.Proof.Gen.ReferenceIdeal
import proofs.«105083_j26018911879634_1_alg».proof.Proof.Gen.ReferenceIdeal.Run
import proofs.«105083_j26018911879634_1_alg».proof.Proof.Gen.ReferenceIdeal.Read
import proofs.«105083_j26018911879634_1_alg».proof.Proof.Gen.Pre_finite_inputs
import proofs.«105083_j26018911879634_1_alg».proof.Proof.KernelRun
import proofs.«105083_j26018911879634_1_alg».proof.Proof.Chain
import proofs.«105083_j26018911879634_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

namespace Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the network of `Spec` of those arguments
    in their result arrays: the kernel program's four regions leave the four layers composed, and the reference's
    straight line of operations is the same composition. -/
theorem algebraic : Cert.algebraic_KernelIdeal_ReferenceIdeal := by
  intro m ρ m' ρ' _ hagree
  refine ⟨fun c => Cert.KernelIdeal.Gen.W8 m ρ c (Proc.devRef .tc Cert.KernelIdeal.main_v19), Cert.KernelIdeal.ValueRun.run_named m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Layers.ref_value m' c).trans (Eq.trans ?_ (Cert.KernelIdeal.Chain.kernel_value m ρ c).symm)
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
